-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3136x384 : Shape := ⟨3, ![16, 3136, 384]⟩
abbrev S1152x384 : Shape := ⟨2, ![1152, 384]⟩
abbrev S384x384 : Shape := ⟨2, ![384, 384]⟩
abbrev S384 : Shape := ⟨1, ![384]⟩
abbrev S_ : Shape := ⟨0, ![]⟩

class Facts : Prop where
  bcast_S_S16x3136x384 : S_.BroadcastsInDim S16x3136x384 (![] : Fin 0 → Fin S16x3136x384.rank)
  reducesTo_S16x3136x384_S_d0_1_2 : S16x3136x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S16x3136x384 .f32) (main_arg1 : FVec F S1152x384 .f32) (main_arg2 : FVec F S384x384 .f32) (main_arg3 : FVec F S384 .f32) : IVec S_ 1 :=
  let main_v0 : FVec F S16x3136x384 .f32 := Host.absf main_arg0
  let main_cst : FVec F S_ .f32 := constant S_ .f32 0x7F800000#32
  let main_v1 : FVec F S16x3136x384 .f32 := broadcastInDim S16x3136x384 ![] bcast_S_S16x3136x384 main_cst
  let main_v2 : IVec S16x3136x384 1 := cmpf .olt main_v0 main_v1
  let main_c : IVec S_ 1 := constantI S_ 1 1#1
  let main_v3 : IVec S_ 1 := (fun x v => Host.reduce IntOp.andi x v reducesTo_S16x3136x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S384x384 .f32 := Host.absf main_arg2
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S16x3136x384 : Shape := ⟨3, ![16, 3136, 384]⟩
abbrev S1152x384 : Shape := ⟨2, ![1152, 384]⟩
abbrev S384x384 : Shape := ⟨2, ![384, 384]⟩
abbrev S384 : Shape := ⟨1, ![384]⟩
abbrev S16x56x56x384 : Shape := ⟨4, ![16, 56, 56, 384]⟩
abbrev S16x8x7x8x7x384 : Shape := ⟨6, ![16, 8, 7, 8, 7, 384]⟩
abbrev S16x8x8x7x7x384 : Shape := ⟨6, ![16, 8, 8, 7, 7, 384]⟩
abbrev S1024x49x384 : Shape := ⟨3, ![1024, 49, 384]⟩
abbrev S1x384 : Shape := ⟨2, ![1, 384]⟩
abbrev S16x49x384 : Shape := ⟨3, ![16, 49, 384]⟩
abbrev S784x384 : Shape := ⟨2, ![784, 384]⟩
abbrev S784x1152 : Shape := ⟨2, ![784, 1152]⟩
abbrev S784x32 : Shape := ⟨2, ![784, 32]⟩
abbrev S16x49x32 : Shape := ⟨3, ![16, 49, 32]⟩
abbrev S16x49x49 : Shape := ⟨3, ![16, 49, 49]⟩
abbrev S16x49 : Shape := ⟨2, ![16, 49]⟩
abbrev S16x49x1 : Shape := ⟨3, ![16, 49, 1]⟩

abbrev nBuf : Space → Nat
  | .hbm => 14
  | .vmem => 7
  | .smem => 0
  | _ => 0

abbrev bufTy : (tb : Table) → Fin (tcTables nBuf tb) → BufTy
  | .hbm, ⟨0, _⟩ => ⟨S16x3136x384, .f32⟩
  | .hbm, ⟨1, _⟩ => ⟨S1152x384, .f32⟩
  | .hbm, ⟨2, _⟩ => ⟨S384x384, .f32⟩
  | .hbm, ⟨3, _⟩ => ⟨S384, .f32⟩
  | .hbm, ⟨4, _⟩ => ⟨S16x56x56x384, .f32⟩
  | .hbm, ⟨5, _⟩ => ⟨S16x8x7x8x7x384, .f32⟩
  | .hbm, ⟨6, _⟩ => ⟨S16x8x8x7x7x384, .f32⟩
  | .hbm, ⟨7, _⟩ => ⟨S1024x49x384, .f32⟩
  | .hbm, ⟨8, _⟩ => ⟨S1x384, .f32⟩
  | .hbm, ⟨9, _⟩ => ⟨S1024x49x384, .f32⟩
  | .hbm, ⟨10, _⟩ => ⟨S16x8x8x7x7x384, .f32⟩
  | .hbm, ⟨11, _⟩ => ⟨S16x8x7x8x7x384, .f32⟩
  | .hbm, ⟨12, _⟩ => ⟨S16x56x56x384, .f32⟩
  | .hbm, ⟨13, _⟩ => ⟨S16x3136x384, .f32⟩
  | .local _ .vmem, ⟨0, _⟩ => ⟨S16x49x384, .f32⟩
  | .local _ .vmem, ⟨1, _⟩ => ⟨S16x49x384, .f32⟩
  | .local _ .vmem, ⟨2, _⟩ => ⟨S1152x384, .f32⟩
  | .local _ .vmem, ⟨3, _⟩ => ⟨S384x384, .f32⟩
  | .local _ .vmem, ⟨4, _⟩ => ⟨S1x384, .f32⟩
  | .local _ .vmem, ⟨5, _⟩ => ⟨S16x49x384, .f32⟩
  | .local _ .vmem, ⟨6, _⟩ => ⟨S16x49x384, .f32⟩
  | _, _ => ⟨S16x3136x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x49x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x49x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x3136x384_S16x56x56x384 : S16x3136x384.ShapeCasts S16x56x56x384
  shapeCasts_S16x56x56x384_S16x8x7x8x7x384 : S16x56x56x384.ShapeCasts S16x8x7x8x7x384
  transposes_S16x8x7x8x7x384_S16x8x8x7x7x384_0_1_3_2_4_5 : S16x8x7x8x7x384.Transposes [0, 1, 3, 2, 4, 5] S16x8x8x7x7x384
  shapeCasts_S16x8x8x7x7x384_S1024x49x384 : S16x8x8x7x7x384.ShapeCasts S1024x49x384
  shapeCasts_S384_S1x384 : S384.ShapeCasts S1x384
  inb_S16x49x384_S16x49x384_0_0_0 : ∀ a, (![0, 0, 0] : Fin 3 → Nat) a + S16x49x384.size a ≤ S16x49x384.size a
  h_S16x49x384 : 0 < S16x49x384.numel
  shapeCasts_S16x49x384_S16x49x384 : S16x49x384.ShapeCasts S16x49x384
  shapeCasts_S16x49x384_S784x384 : S16x49x384.ShapeCasts S784x384
  bitsLt_bf16_f32 : FTy.bits .bf16 < FTy.bits .f32
  inb_S1152x384_S1152x384_0_0 : ∀ a, (![0, 0] : Fin 2 → Nat) a + S1152x384.size a ≤ S1152x384.size a
  h_S1152x384 : 0 < S1152x384.numel
  slices_S784x1152_o0_0_S784x384 : S784x1152.Slices ![0, 0] S784x384
  slices_S784x1152_o0_384_S784x384 : S784x1152.Slices ![0, 384] S784x384
  slices_S784x1152_o0_768_S784x384 : S784x1152.Slices ![0, 768] S784x384
  slices_S784x384_o0_0_S784x32 : S784x384.Slices ![0, 0] S784x32
  shapeCasts_S784x32_S16x49x32 : S784x32.ShapeCasts S16x49x32
  reduces_S16x49x49_S16x49 : S16x49x49.Reduces [2] S16x49
  shapeCasts_S16x49_S16x49x1 : S16x49.ShapeCasts S16x49x1
  broadcasts_S16x49x1_S16x49x49 : S16x49x1.Broadcasts S16x49x49
  shapeCasts_S16x49x32_S784x32 : S16x49x32.ShapeCasts S784x32
  slices_S784x384_o0_32_S784x32 : S784x384.Slices ![0, 32] S784x32
  slices_S784x384_o0_64_S784x32 : S784x384.Slices ![0, 64] S784x32
  slices_S784x384_o0_96_S784x32 : S784x384.Slices ![0, 96] S784x32
  slices_S784x384_o0_128_S784x32 : S784x384.Slices ![0, 128] S784x32
  slices_S784x384_o0_160_S784x32 : S784x384.Slices ![0, 160] S784x32
  slices_S784x384_o0_192_S784x32 : S784x384.Slices ![0, 192] S784x32
  slices_S784x384_o0_224_S784x32 : S784x384.Slices ![0, 224] S784x32
  slices_S784x384_o0_256_S784x32 : S784x384.Slices ![0, 256] S784x32
  slices_S784x384_o0_288_S784x32 : S784x384.Slices ![0, 288] S784x32
  slices_S784x384_o0_320_S784x32 : S784x384.Slices ![0, 320] S784x32
  slices_S784x384_o0_352_S784x32 : S784x384.Slices ![0, 352] S784x32
  concatenates_S784x32_S784x32_S784x32_S784x32_S784x32_S784x32_S784x32_S784x32_S784x32_S784x32_S784x32_S784x32_S784x384_d1 : Shape.Concatenates [S784x32, S784x32, S784x32, S784x32, S784x32, S784x32, S784x32, S784x32, S784x32, S784x32, S784x32, S784x32] S784x384 1
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S784x384 : S1x384.Broadcasts S784x384
  shapeCasts_S784x384_S16x49x384 : S784x384.ShapeCasts S16x49x384
  shapeCasts_S1024x49x384_S16x8x8x7x7x384 : S1024x49x384.ShapeCasts S16x8x8x7x7x384
  transposes_S16x8x8x7x7x384_S16x8x7x8x7x384_0_1_3_2_4_5 : S16x8x8x7x7x384.Transposes [0, 1, 3, 2, 4, 5] S16x8x7x8x7x384
  shapeCasts_S16x8x7x8x7x384_S16x56x56x384 : S16x8x7x8x7x384.ShapeCasts S16x56x56x384
  shapeCasts_S16x56x56x384_S16x3136x384 : S16x56x56x384.ShapeCasts S16x3136x384
  dot_S784x384_S1152x384_S784x1152_1_1_0_0_n_n_wf : DotDims.WF S784x384 S1152x384 S784x1152 [1] [1] [0] [0] [] []
  dot_S16x49x32_S16x49x32_S16x49x49_2_2_1_1_0_0_wf : DotDims.WF S16x49x32 S16x49x32 S16x49x49 [2] [2] [1] [1] [0] [0]
  dot_S16x49x49_S16x49x32_S16x49x32_2_1_1_2_0_0_wf : DotDims.WF S16x49x49 S16x49x32 S16x49x32 [2] [1] [1] [2] [0] [0]
  dot_S784x384_S384x384_S784x384_1_1_0_0_n_n_wf : DotDims.WF S784x384 S384x384 S784x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x49x384.size a ≤ S1024x49x384.size a
  hwx0_0 : ∀ i : grid0.Coords, EltTy.bits .f32 = 32 ∨ (Rect.block (s := S1024x49x384) S16x49x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x384.size a ≤ S1152x384.size a
  hwx0_1 : ∀ i : grid0.Coords, EltTy.bits .f32 = 32 ∨ (Rect.block (s := S1152x384) S1152x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .f32 = 32 ∨ (Rect.block (s := S384x384) S384x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x49x384.size a ≤ S1024x49x384.size a
  hwx0_4 : ∀ i : grid0.Coords, EltTy.bits .f32 = 32 ∨ (Rect.block (s := S1024x49x384) S16x49x384.size (cc0_transform_4 i) (hinb0_4 i)).WholeWords (EltTy.packing .f32)

variable [Facts₀]

def dot_S784x384_S1152x384_S784x1152_1_1_0_0_n_n : DotDims S784x384 S1152x384 S784x1152 where
  lhsContracting := [1]
  rhsContracting := [1]
  lhsNonContracting := [0]
  rhsNonContracting := [0]
  lhsBatch := []
  rhsBatch := []
  wf := dot_S784x384_S1152x384_S784x1152_1_1_0_0_n_n_wf
def dot_S16x49x32_S16x49x32_S16x49x49_2_2_1_1_0_0 : DotDims S16x49x32 S16x49x32 S16x49x49 where
  lhsContracting := [2]
  rhsContracting := [2]
  lhsNonContracting := [1]
  rhsNonContracting := [1]
  lhsBatch := [0]
  rhsBatch := [0]
  wf := dot_S16x49x32_S16x49x32_S16x49x49_2_2_1_1_0_0_wf
def dot_S16x49x49_S16x49x32_S16x49x32_2_1_1_2_0_0 : DotDims S16x49x49 S16x49x32 S16x49x32 where
  lhsContracting := [2]
  rhsContracting := [1]
  lhsNonContracting := [1]
  rhsNonContracting := [2]
  lhsBatch := [0]
  rhsBatch := [0]
  wf := dot_S16x49x49_S16x49x32_S16x49x32_2_1_1_2_0_0_wf
def dot_S784x384_S384x384_S784x384_1_1_0_0_n_n : DotDims S784x384 S384x384 S784x384 where
  lhsContracting := [1]
  rhsContracting := [1]
  lhsNonContracting := [0]
  rhsNonContracting := [0]
  lhsBatch := []
  rhsBatch := []
  wf := dot_S784x384_S384x384_S784x384_1_1_0_0_n_n_wf

abbrev win0_0 : Pipeline.Window sig grid0 :=
  Pipeline.Window.ofSpec (Memref.whole main_v3) S16x49x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1152x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x49x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x3136x384 : Shape := ⟨3, ![16, 3136, 384]⟩
abbrev S1152x384 : Shape := ⟨2, ![1152, 384]⟩
abbrev S384x384 : Shape := ⟨2, ![384, 384]⟩
abbrev S384 : Shape := ⟨1, ![384]⟩
abbrev S16x56x56x384 : Shape := ⟨4, ![16, 56, 56, 384]⟩
abbrev S16x8x7x8x7x384 : Shape := ⟨6, ![16, 8, 7, 8, 7, 384]⟩
abbrev S16x8x8x7x7x384 : Shape := ⟨6, ![16, 8, 8, 7, 7, 384]⟩
abbrev S1024x49x384 : Shape := ⟨3, ![1024, 49, 384]⟩
abbrev S1024x49x1152 : Shape := ⟨3, ![1024, 49, 1152]⟩
abbrev S1024x49x3x12x32 : Shape := ⟨5, ![1024, 49, 3, 12, 32]⟩
abbrev S3x1024x12x49x32 : Shape := ⟨5, ![3, 1024, 12, 49, 32]⟩
abbrev S1x1024x12x49x32 : Shape := ⟨5, ![1, 1024, 12, 49, 32]⟩
abbrev S1024x12x49x32 : Shape := ⟨4, ![1024, 12, 49, 32]⟩
abbrev S1024x12x49x49 : Shape := ⟨4, ![1024, 12, 49, 49]⟩
abbrev S_ : Shape := ⟨0, ![]⟩
abbrev S1024x12x49 : Shape := ⟨3, ![1024, 12, 49]⟩
abbrev S1024x12x49x1 : Shape := ⟨4, ![1024, 12, 49, 1]⟩
abbrev S1024x49x12x32 : Shape := ⟨4, ![1024, 49, 12, 32]⟩
abbrev S1x1x384 : Shape := ⟨3, ![1, 1, 384]⟩

abbrev nBuf : Space → Nat
  | .hbm => 46
  | .vmem => 0
  | .smem => 0
  | _ => 0

abbrev bufTy : (tb : Table) → Fin (tcTables nBuf tb) → BufTy
  | .hbm, ⟨0, _⟩ => ⟨S16x3136x384, .f32⟩
  | .hbm, ⟨1, _⟩ => ⟨S1152x384, .f32⟩
  | .hbm, ⟨2, _⟩ => ⟨S384x384, .f32⟩
  | .hbm, ⟨3, _⟩ => ⟨S384, .f32⟩
  | .hbm, ⟨4, _⟩ => ⟨S16x56x56x384, .f32⟩
  | .hbm, ⟨5, _⟩ => ⟨S16x8x7x8x7x384, .f32⟩
  | .hbm, ⟨6, _⟩ => ⟨S16x8x8x7x7x384, .f32⟩
  | .hbm, ⟨7, _⟩ => ⟨S1024x49x384, .f32⟩
  | .hbm, ⟨8, _⟩ => ⟨S1024x49x1152, .f32⟩
  | .hbm, ⟨9, _⟩ => ⟨S1024x49x3x12x32, .f32⟩
  | .hbm, ⟨10, _⟩ => ⟨S3x1024x12x49x32, .f32⟩
  | .hbm, ⟨11, _⟩ => ⟨S1x1024x12x49x32, .f32⟩
  | .hbm, ⟨12, _⟩ => ⟨S1024x12x49x32, .f32⟩
  | .hbm, ⟨13, _⟩ => ⟨S1x1024x12x49x32, .f32⟩
  | .hbm, ⟨14, _⟩ => ⟨S1024x12x49x32, .f32⟩
  | .hbm, ⟨15, _⟩ => ⟨S1x1024x12x49x32, .f32⟩
  | .hbm, ⟨16, _⟩ => ⟨S1024x12x49x32, .f32⟩
  | .hbm, ⟨17, _⟩ => ⟨S1024x12x49x49, .f32⟩
  | .hbm, ⟨18, _⟩ => ⟨S_, .f32⟩
  | .hbm, ⟨19, _⟩ => ⟨S1024x12x49x49, .f32⟩
  | .hbm, ⟨20, _⟩ => ⟨S1024x12x49x49, .f32⟩
  | .hbm, ⟨21, _⟩ => ⟨S_, .f32⟩
  | .hbm, ⟨22, _⟩ => ⟨S1024x12x49, .f32⟩
  | .hbm, ⟨23, _⟩ => ⟨S_, .f32⟩
  | .hbm, ⟨24, _⟩ => ⟨S1024x12x49, .f32⟩
  | .hbm, ⟨25, _⟩ => ⟨S1024x12x49, .f32⟩
  | .hbm, ⟨26, _⟩ => ⟨S1024x12x49x1, .f32⟩
  | .hbm, ⟨27, _⟩ => ⟨S1024x12x49x49, .f32⟩
  | .hbm, ⟨28, _⟩ => ⟨S1024x12x49x49, .f32⟩
  | .hbm, ⟨29, _⟩ => ⟨S1024x12x49x49, .f32⟩
  | .hbm, ⟨30, _⟩ => ⟨S_, .f32⟩
  | .hbm, ⟨31, _⟩ => ⟨S1024x12x49, .f32⟩
  | .hbm, ⟨32, _⟩ => ⟨S1024x12x49x1, .f32⟩
  | .hbm, ⟨33, _⟩ => ⟨S1024x12x49x49, .f32⟩
  | .hbm, ⟨34, _⟩ => ⟨S1024x12x49x49, .f32⟩
  | .hbm, ⟨35, _⟩ => ⟨S1024x12x49x32, .f32⟩
  | .hbm, ⟨36, _⟩ => ⟨S1024x49x12x32, .f32⟩
  | .hbm, ⟨37, _⟩ => ⟨S1024x49x384, .f32⟩
  | .hbm, ⟨38, _⟩ => ⟨S1024x49x384, .f32⟩
  | .hbm, ⟨39, _⟩ => ⟨S1x1x384, .f32⟩
  | .hbm, ⟨40, _⟩ => ⟨S1024x49x384, .f32⟩
  | .hbm, ⟨41, _⟩ => ⟨S1024x49x384, .f32⟩
  | .hbm, ⟨42, _⟩ => ⟨S16x8x8x7x7x384, .f32⟩
  | .hbm, ⟨43, _⟩ => ⟨S16x8x7x8x7x384, .f32⟩
  | .hbm, ⟨44, _⟩ => ⟨S16x56x56x384, .f32⟩
  | .hbm, ⟨45, _⟩ => ⟨S16x3136x384, .f32⟩
  | _, _ => ⟨S16x3136x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]

class Facts₀ : Prop where
  shapeCasts_S16x3136x384_S16x56x56x384 : S16x3136x384.ShapeCasts S16x56x56x384
  shapeCasts_S16x56x56x384_S16x8x7x8x7x384 : S16x56x56x384.ShapeCasts S16x8x7x8x7x384
  transposes_S16x8x7x8x7x384_S16x8x8x7x7x384_0_1_3_2_4_5 : S16x8x7x8x7x384.Transposes [0, 1, 3, 2, 4, 5] S16x8x8x7x7x384
  shapeCasts_S16x8x8x7x7x384_S1024x49x384 : S16x8x8x7x7x384.ShapeCasts S1024x49x384
  shapeCasts_S1024x49x1152_S1024x49x3x12x32 : S1024x49x1152.ShapeCasts S1024x49x3x12x32
  transposes_S1024x49x3x12x32_S3x1024x12x49x32_2_0_3_1_4 : S1024x49x3x12x32.Transposes [2, 0, 3, 1, 4] S3x1024x12x49x32
  slices_S3x1024x12x49x32_S1x1024x12x49x32_0_0_0_0_0 : S3x1024x12x49x32.Slices ![0, 0, 0, 0, 0] S1x1024x12x49x32
  shapeCasts_S1x1024x12x49x32_S1024x12x49x32 : S1x1024x12x49x32.ShapeCasts S1024x12x49x32
  slices_S3x1024x12x49x32_S1x1024x12x49x32_1_0_0_0_0 : S3x1024x12x49x32.Slices ![1, 0, 0, 0, 0] S1x1024x12x49x32
  slices_S3x1024x12x49x32_S1x1024x12x49x32_2_0_0_0_0 : S3x1024x12x49x32.Slices ![2, 0, 0, 0, 0] S1x1024x12x49x32
  bcast_S_S1024x12x49x49 : S_.BroadcastsInDim S1024x12x49x49 (![] : Fin 0 → Fin S1024x12x49x49.rank)
  reducesTo_S1024x12x49x49_S1024x12x49_d3 : S1024x12x49x49.ReducesTo [3] S1024x12x49
  h_S_ : 0 < S_.numel
  bcast_S_S1024x12x49 : S_.BroadcastsInDim S1024x12x49 (![] : Fin 0 → Fin S1024x12x49.rank)
  bcast_S1024x12x49_S1024x12x49x1_0_1_2 : S1024x12x49.BroadcastsInDim S1024x12x49x1 (![0, 1, 2] : Fin 3 → Fin S1024x12x49x1.rank)
  bcast_S1024x12x49x1_S1024x12x49x49_0_1_2_3 : S1024x12x49x1.BroadcastsInDim S1024x12x49x49 (![0, 1, 2, 3] : Fin 4 → Fin S1024x12x49x49.rank)
  transposes_S1024x12x49x32_S1024x49x12x32_0_2_1_3 : S1024x12x49x32.Transposes [0, 2, 1, 3] S1024x49x12x32
  shapeCasts_S1024x49x12x32_S1024x49x384 : S1024x49x12x32.ShapeCasts S1024x49x384
  bcast_S384_S1x1x384_2 : S384.BroadcastsInDim S1x1x384 (![2] : Fin 1 → Fin S1x1x384.rank)
  bcast_S1x1x384_S1024x49x384_0_1_2 : S1x1x384.BroadcastsInDim S1024x49x384 (![0, 1, 2] : Fin 3 → Fin S1024x49x384.rank)
  shapeCasts_S1024x49x384_S16x8x8x7x7x384 : S1024x49x384.ShapeCasts S16x8x8x7x7x384
  transposes_S16x8x8x7x7x384_S16x8x7x8x7x384_0_1_3_2_4_5 : S16x8x8x7x7x384.Transposes [0, 1, 3, 2, 4, 5] S16x8x7x8x7x384
  shapeCasts_S16x8x7x8x7x384_S16x56x56x384 : S16x8x7x8x7x384.ShapeCasts S16x56x56x384
  shapeCasts_S16x56x56x384_S16x3136x384 : S16x56x56x384.ShapeCasts S16x3136x384
  dot_S1024x49x384_S1152x384_S1024x49x1152_2_1_01_0_n_n_wf : DotDims.WF S1024x49x384 S1152x384 S1024x49x1152 [2] [1] [0, 1] [0] [] []
  dot_S1024x12x49x32_S1024x12x49x32_S1024x12x49x49_3_3_2_2_01_01_wf : DotDims.WF S1024x12x49x32 S1024x12x49x32 S1024x12x49x49 [3] [3] [2] [2] [0, 1] [0, 1]
  dot_S1024x12x49x49_S1024x12x49x32_S1024x12x49x32_3_2_2_3_01_01_wf : DotDims.WF S1024x12x49x49 S1024x12x49x32 S1024x12x49x32 [3] [2] [2] [3] [0, 1] [0, 1]
  dot_S1024x49x384_S384x384_S1024x49x384_2_1_01_0_n_n_wf : DotDims.WF S1024x49x384 S384x384 S1024x49x384 [2] [1] [0, 1] [0] [] []

variable [Facts₀]

def dot_S1024x49x384_S1152x384_S1024x49x1152_2_1_01_0_n_n : DotDims S1024x49x384 S1152x384 S1024x49x1152 where
  lhsContracting := [2]
  rhsContracting := [1]
  lhsNonContracting := [0, 1]
  rhsNonContracting := [0]
  lhsBatch := []
  rhsBatch := []
  wf := dot_S1024x49x384_S1152x384_S1024x49x1152_2_1_01_0_n_n_wf
def dot_S1024x12x49x32_S1024x12x49x32_S1024x12x49x49_3_3_2_2_01_01 : DotDims S1024x12x49x32 S1024x12x49x32 S1024x12x49x49 where
  lhsContracting := [3]
  rhsContracting := [3]
  lhsNonContracting := [2]
  rhsNonContracting := [2]
  lhsBatch := [0, 1]
  rhsBatch := [0, 1]
  wf := dot_S1024x12x49x32_S1024x12x49x32_S1024x12x49x49_3_3_2_2_01_01_wf
def dot_S1024x12x49x49_S1024x12x49x32_S1024x12x49x32_3_2_2_3_01_01 : DotDims S1024x12x49x49 S1024x12x49x32 S1024x12x49x32 where
  lhsContracting := [3]
  rhsContracting := [2]
  lhsNonContracting := [2]
  rhsNonContracting := [3]
  lhsBatch := [0, 1]
  rhsBatch := [0, 1]
  wf := dot_S1024x12x49x49_S1024x12x49x32_S1024x12x49x32_3_2_2_3_01_01_wf
def dot_S1024x49x384_S384x384_S1024x49x384_2_1_01_0_n_n : DotDims S1024x49x384 S384x384 S1024x49x384 where
  lhsContracting := [2]
  rhsContracting := [1]
  lhsNonContracting := [0, 1]
  rhsNonContracting := [0]
  lhsBatch := []
  rhsBatch := []
  wf := dot_S1024x49x384_S384x384_S1024x49x384_2_1_01_0_n_n_wf

class Facts : Prop extends Facts₀ where

variable [Facts]
-- ==== Proof.BodyDef.lean ====
/-
  The kernel body's arithmetic, one head at a time.

  The body projects a block of 16 windows (784 token rows) to 1152 columns, cuts the projection into query, key and value
  parts of 384 columns, and for each of the 12 heads takes 32 columns of each part, folds the 784 rows back into
  16 windows of 49 tokens, forms the scaled scores, their softmax and the weighted sum of the value rows, and unfolds
  the result to 784 rows again. The twelve results are put side by side, projected by the second weight and the bias
  is added. Here the one head's text is written once, as a function of the column offset; the printed body repeats it
  twelve times.
-/
import proofs.«164484_j4793183502520_1_alg».proof.Proof.Gen.KernelIdeal.Skeleton

noncomputable section

namespace Cert.KernelIdeal.Body

open Idealize.ShloMosaic Idealize.SL.Sem Cert.KernelIdeal Cert.KernelIdeal.Gen

variable {F : FTy → Type} [FloatOps F]

/-- Columns `o … o+31` of a 784×384 part, folded to 16 windows × 49 tokens × 32. -/
def part (v : FVec F S784x384 .f32) (o : Nat) (hs : S784x384.Slices ![0, o] S784x32) : FVec F S16x49x32 .bf16 :=
  truncf .bf16 (shapeCast S16x49x32 (extractStridedSlice S784x32 ![0, o] v hs) shapeCasts_S784x32_S16x49x32) bitsLt_bf16_f32

/-- The scaled scores of every window: queries against keys, times the scale word. -/
def scores (q k : FVec F S16x49x32 .bf16) : FVec F S16x49x49 .f32 :=
  mulf (matmul dot_S16x49x32_S16x49x32_S16x49x49_2_2_1_1_0_0 none q k (constant S16x49x49 .f32 0x00000000#32))
    (broadcast S16x49x49 (Scalar.ofBits .f32 0x3E3504F3#32))

/-- Each row's maximum, kept as a last axis of extent one and spread back over the row. -/
def rowMaxK (l : FVec F S16x49x49 .f32) : FVec F S16x49x49 .f32 :=
  broadcastTo S16x49x49 (shapeCast S16x49x1 (maximumf (broadcast S16x49 (Scalar.ofBits .f32 0xFF800000#32))
    (multiReduction .maximumf [2] S16x49 l 0xFF800000#32 reduces_S16x49x49_S16x49 (.inl rfl) rfl)) shapeCasts_S16x49_S16x49x1)
    broadcasts_S16x49x1_S16x49x49

/-- The exponentials of the scores less their row's maximum. -/
def expoK (l : FVec F S16x49x49 .f32) : FVec F S16x49x49 .f32 := exp (subf l (rowMaxK l))

/-- Each row's sum of exponentials, spread back over the row. -/
def rowSumK (p : FVec F S16x49x49 .f32) : FVec F S16x49x49 .f32 :=
  broadcastTo S16x49x49 (shapeCast S16x49x1 (multiReduction .add [2] S16x49 p 0x00000000#32 reduces_S16x49x49_S16x49 (.inl rfl) rfl)
    shapeCasts_S16x49_S16x49x1) broadcasts_S16x49x1_S16x49x49

/-- The softmax weights. -/
def weights (l : FVec F S16x49x49 .f32) : FVec F S16x49x49 .bf16 :=
  truncf .bf16 (divf (expoK l) (rowSumK (expoK l))) bitsLt_bf16_f32

/-- One head from its scaled scores and its values: the weighted sums, unfolded to 784 rows. -/
def mix (l : FVec F S16x49x49 .f32) (v : FVec F S16x49x32 .bf16) : FVec F S784x32 .f32 :=
  shapeCast S784x32 (matmul dot_S16x49x49_S16x49x32_S16x49x32_2_1_1_2_0_0 none (weights l) v (constant S16x49x32 .f32 0x00000000#32))
    shapeCasts_S16x49x32_S784x32

/-- The head that reads columns `o … o+31` of the three parts. -/
def headAt (v7 v8 v9 : FVec F S784x384 .f32) (o : Nat) (hs : S784x384.Slices ![0, o] S784x32) : FVec F S784x32 .f32 :=
  mix (scores (part v7 o hs) (part v8 o hs)) (part v9 o hs)

/-- The twelve heads side by side, projected, plus the bias, folded to the block's shape. -/
def finish (hd : List ((s : Shape) × (s.Idx → F .f32)))
    (hc : Shape.Concatenates (hd.map (·.1)) S784x384 1) (x2 : Vec F S384x384 .f32) (x3 : Vec F S1x384 .f32) : FVec F S16x49x384 .f32 :=
  shapeCast S16x49x384 (addf
    (matmul dot_S784x384_S384x384_S784x384_1_1_0_0_n_n none (truncf .bf16 (concatenate S784x384 1 hd hc) bitsLt_bf16_f32)
      (truncf .bf16 x2 bitsLt_bf16_f32) (constant S784x384 .f32 0x00000000#32))
    (broadcastTo S784x384 (shapeCast S1x384 x3 shapeCasts_S1x384_S1x384) broadcasts_S1x384_S784x384)) shapeCasts_S784x384_S16x49x384

/-- Row `w·49 + s` of the 784: token `s` of window `w` of the block. -/
def row (w : Fin 16) (s : Fin 49) : Fin 784 := ⟨w.val * 49 + s.val, by have := w.isLt; have := s.isLt; omega⟩

/-- Column `o + e` of a 384-column part. -/
def colAt (o : Nat) (ho : o + 32 ≤ 384) (e : Fin 32) : Fin 384 := ⟨o + e.val, by have := e.isLt; omega⟩

theorem head0_eq (x0 : Vec F S16x49x384 .f32) (x1 : Vec F S1152x384 .f32) :
    k0_pay5 x0 x1 = headAt (k0_pay2 x0 x1) (k0_pay3 x0 x1) (k0_pay4 x0 x1) 0 slices_S784x384_o0_0_S784x32 := rfl

theorem head1_eq (x0 : Vec F S16x49x384 .f32) (x1 : Vec F S1152x384 .f32) :
    k0_pay8 (k0_pay6 x0 x1) (k0_pay7 x0 x1) = headAt (k0_pay2 x0 x1) (k0_pay3 x0 x1) (k0_pay4 x0 x1) 32 slices_S784x384_o0_32_S784x32 := rfl

end Cert.KernelIdeal.Body

end
-- ==== Proof.Spec.lean ====
/-
  Windowed multi-head self-attention of ONE 7×7 window, as a function of scalars.

  A window holds 49 tokens of 384 channels. The fused projection gives every token a row of 1152 numbers: a query,
  a key and a value of 32 numbers for each of 12 heads (column `(a·12 + h)·32 + e`, a = 0, 1, 2 for query, key, value).
  For head `h` the score of token `s` against token `t` is the inner product of query `s` and key `t` times the
  scale 32^(-1/2) (one f32 word, the same in both programs, so never evaluated); a row of scores is turned into
  weights by the softmax — subtract the row's maximum, exponentiate, divide by the row's sum —; the head's output at
  token `s` is the weighted sum of the value rows. The 12 heads' outputs side by side (column `h·32 + e`) are projected
  by a 384×384 matrix and a bias is added.

  Every sum is a `Finset` sum over the extended reals and every maximum a `Finset` fold, so the order in which a program
  takes them does not matter; no law used here needs finiteness.
-/
import Idealize.ShloMosaic.PureOps.Ideal
import Idealize.ShloMosaic.PureOps.Ideal.Laws
import Idealize.ShloMosaic.Lib.ValueIdx

noncomputable section

namespace Cert.WinAttn

open Idealize.ShloMosaic

/-- The scaled score of query row `s` against key row `t`. -/
def score (q k : Fin 49 → Fin 32 → EReal) (s t : Fin 49) : EReal :=
  (∑ e : Fin 32, q s e * k t e) * Ideal.ofBits .f32 0x3E3504F3#32

/-- A row's maximum as both programs take it: the larger of the word of -∞ and the fold of `max` from that word. -/
def rowMax (l : Fin 49 → EReal) : EReal :=
  max (Ideal.ofBits .f32 0xFF800000#32) ((Finset.univ : Finset (Fin 49)).fold max (Ideal.ofBits .f32 0xFF800000#32) l)

/-- The exponential of a score less its row's maximum. -/
def expo (l : Fin 49 → EReal) (t : Fin 49) : EReal := Ideal.exp (l t - rowMax l)

/-- The softmax weight of entry `t` of a row of scores. -/
def soft (l : Fin 49 → EReal) (t : Fin 49) : EReal := Ideal.div (expo l t) (∑ u : Fin 49, expo l u)

/-- One head: the softmax-weighted sum of the value rows. -/
def attnHead (q k v : Fin 49 → Fin 32 → EReal) (s : Fin 49) (e : Fin 32) : EReal :=
  ∑ t : Fin 49, soft (score q k s) t * v t e

/-- Column `(a·12 + h)·32 + e` of the fused projection: part `a` (query, key, value), head `h`, entry `e`. -/
def col (a : Fin 3) (h : Fin 12) (e : Fin 32) : Fin 1152 :=
  ⟨(a.val * 12 + h.val) * 32 + e.val, by have := a.isLt; have := h.isLt; have := e.isLt; omega⟩

/-- The fused projection of a window: token `s`, column `j`. -/
def qkv (x : Fin 49 → Fin 384 → EReal) (w1 : Fin 1152 → Fin 384 → EReal) (s : Fin 49) (j : Fin 1152) : EReal :=
  ∑ c : Fin 384, x s c * w1 j c

/-- Head `h` of a window, from its fused projection. -/
def head (x : Fin 49 → Fin 384 → EReal) (w1 : Fin 1152 → Fin 384 → EReal) (h : Fin 12) (s : Fin 49) (e : Fin 32) : EReal :=
  attnHead (fun s' e' => qkv x w1 s' (col 0 h e')) (fun s' e' => qkv x w1 s' (col 1 h e')) (fun s' e' => qkv x w1 s' (col 2 h e')) s e

/-- The heads side by side: column `c` is entry `c % 32` of head `c / 32`. -/
def heads (x : Fin 49 → Fin 384 → EReal) (w1 : Fin 1152 → Fin 384 → EReal) (s : Fin 49) (c : Fin 384) : EReal :=
  head x w1 ⟨c.val / 32, by have := c.isLt; omega⟩ s ⟨c.val % 32, Nat.mod_lt _ (by decide)⟩

/-- The window's result: the heads projected, plus the bias. -/
def winAttn (x : Fin 49 → Fin 384 → EReal) (w1 : Fin 1152 → Fin 384 → EReal) (w2 : Fin 384 → Fin 384 → EReal)
    (b : Fin 384 → EReal) (s : Fin 49) (d : Fin 384) : EReal :=
  (∑ c : Fin 384, heads x w1 s c * w2 d c) + b d

end Cert.WinAttn

end
-- ==== Proof.HeadK.lean ====
/-
  One head of the kernel body read at an entry: row `w·49 + s`, column `e` of the head that takes columns `o … o+31`
  is the attention head of window `w` at token `s`, entry `e`, over the window's 49 rows of those columns.
-/
import proofs.«164484_j4793183502520_1_alg».proof.Proof.BodyDef
import proofs.«164484_j4793183502520_1_alg».proof.Proof.Spec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Idealize.SL.Sem Cert.KernelIdeal Cert.KernelIdeal.Gen

/-! ## A part: 32 columns of a 784-row array, folded to windows -/

/-- Entry `(w, s, e)` of a folded part is row `w·49 + s`, column `o + e` of the array it is cut from. -/
theorem part_apply (v : FVec Ideal S784x384 .f32) (o : Nat) (hs : S784x384.Slices ![0, o] S784x32) (ho : o + 32 ≤ 384)
    (w : Fin 16) (s : Fin 49) (e : Fin 32) :
    part (F := Ideal) v o hs (ix3 w s e) = v (ix2 (row w s) (colAt o ho e)) := by
  unfold part
  rw [truncf_apply]
  refine (shapeCast_apply _ _ (ix3 w s e) (ix2 (row w s) e) ?_).trans ?_
  · rw [Shape.rowMajor_val_two, Shape.rowMajor_val_three]
    show (w.val * 49 + s.val) * 32 + e.val = (w.val * 49 + s.val) * 32 + e.val
    rfl
  · exact extractStridedSlice_apply _ _ _ _ _ (fun a => match a with
      | ⟨0, _⟩ => by show w.val * 49 + s.val = 0 + (w.val * 49 + s.val); omega
      | ⟨1, _⟩ => by show o + e.val = o + e.val; rfl)

/-! ## The scores: queries against keys, window by window -/

/-- The dimension numbers of the scores' product: windows are the batch, the 32 entries are summed. -/
abbrev dotQK : DotDims S16x49x32 S16x49x32 S16x49x49 := dot_S16x49x32_S16x49x32_S16x49x49_2_2_1_1_0_0

theorem lhsQK_0 (i : S16x49x49.Idx) (q : dotQK.contr.Idx) : (dotQK.lhsIdx i q 0).val = (i 0).val := by
  unfold DotDims.lhsIdx
  rw [dif_pos (show (0 : Fin S16x49x32.rank) ∈ dotQK.lhsBatch by decide)]
  rfl
theorem lhsQK_1 (i : S16x49x49.Idx) (q : dotQK.contr.Idx) : (dotQK.lhsIdx i q 1).val = (i 1).val := by
  unfold DotDims.lhsIdx
  rw [dif_neg (show ¬(1 : Fin S16x49x32.rank) ∈ dotQK.lhsBatch by decide),
    dif_pos (show (1 : Fin S16x49x32.rank) ∈ dotQK.lhsNonContracting by decide)]
  rfl
theorem lhsQK_2 (i : S16x49x49.Idx) (q : dotQK.contr.Idx) : (dotQK.lhsIdx i q 2).val = (q ⟨0, by decide⟩).val :=
  dotQK.lhsIdx_val_of_single rfl i q
theorem rhsQK_0 (i : S16x49x49.Idx) (q : dotQK.contr.Idx) : (dotQK.rhsIdx i q 0).val = (i 0).val := by
  unfold DotDims.rhsIdx
  rw [dif_pos (show (0 : Fin S16x49x32.rank) ∈ dotQK.rhsBatch by decide)]
  rfl
theorem rhsQK_1 (i : S16x49x49.Idx) (q : dotQK.contr.Idx) : (dotQK.rhsIdx i q 1).val = (i 2).val := by
  unfold DotDims.rhsIdx
  rw [dif_neg (show ¬(1 : Fin S16x49x32.rank) ∈ dotQK.rhsBatch by decide),
    dif_pos (show (1 : Fin S16x49x32.rank) ∈ dotQK.rhsNonContracting by decide)]
  rfl
theorem rhsQK_2 (i : S16x49x49.Idx) (q : dotQK.contr.Idx) : (dotQK.rhsIdx i q 2).val = (q ⟨0, by decide⟩).val :=
  dotQK.rhsIdx_val_of_single rfl i q

/-- Score `(w, s, t)`: the inner product of query row `s` and key row `t` of window `w`, times the scale. -/
theorem scores_apply (q k : FVec Ideal S16x49x32 .bf16) (w : Fin 16) (s t : Fin 49) :
    scores (F := Ideal) q k (ix3 w s t)
      = (∑ e : Fin 32, q (ix3 w s e) * k (ix3 w t e)) * Ideal.ofBits .f32 0x3E3504F3#32 := by
  unfold scores
  rw [mulf_apply, broadcast_apply]
  refine congrArg (· * _) ?_
  simp only [matmul]
  rw [Ideal.matmul_constant_zero_apply, ← Equiv.sum_comp (contrEquiv1 dotQK 32 rfl rfl).symm]
  refine Finset.sum_congr rfl fun e _ => ?_
  have he := contrEquiv1_symm_val dotQK 32 rfl rfl e
  have el : dotQK.lhsIdx (ix3 w s t) ((contrEquiv1 dotQK 32 rfl rfl).symm e) = ix3 w s e := funext fun a => Fin.ext (by
    match a with
    | ⟨0, _⟩ => exact lhsQK_0 _ _
    | ⟨1, _⟩ => exact lhsQK_1 _ _
    | ⟨2, _⟩ => exact (lhsQK_2 _ _).trans he)
  have er : dotQK.rhsIdx (ix3 w s t) ((contrEquiv1 dotQK 32 rfl rfl).symm e) = ix3 w t e := funext fun a => Fin.ext (by
    match a with
    | ⟨0, _⟩ => exact rhsQK_0 _ _
    | ⟨1, _⟩ => exact rhsQK_1 _ _
    | ⟨2, _⟩ => exact (rhsQK_2 _ _).trans he)
  rw [el, er]

/-! ## The row maximum and the row sum: a fold over the last axis, spread back over the row -/

/-- The reduced index `(w, s)` with coordinate `k` put back on the last axis is `(w, s, k)`. -/
theorem lift_row (h : S16x49x49.Reduces [2] S16x49) (w : Fin 16) (s : Fin 49) (k : Fin (S16x49x49.size 2)) :
    h.lift (ix2 w s) k = ix3 w s (⟨k.val, k.isLt⟩ : Fin 49) := by
  funext c; apply Fin.ext
  match c with
  | ⟨0, _⟩ => rfl
  | ⟨1, _⟩ => rfl
  | ⟨2, _⟩ => rfl

/-- A `[16,49]` array given a last axis of extent one and spread over 49 columns reads, at `(w, s, t)`, its entry `(w, s)`. -/
theorem spread_apply (z : FVec Ideal S16x49 .f32) (w : Fin 16) (s t : Fin 49) :
    broadcastTo S16x49x49 (shapeCast S16x49x1 z shapeCasts_S16x49_S16x49x1) broadcasts_S16x49x1_S16x49x49 (ix3 w s t)
      = z (ix2 w s) := by
  refine (broadcastTo_apply _ _ (ix3 w s t) (ix3 w s (0 : Fin 1)) (fun a => match a with
    | ⟨0, _⟩ => rfl | ⟨1, _⟩ => rfl | ⟨2, _⟩ => rfl)).trans ?_
  exact shapeCast_apply _ _ (ix3 w s (0 : Fin 1)) (ix2 w s) (by
    rw [Shape.rowMajor_val_two, Shape.rowMajor_val_three]
    show w.val * 49 + s.val = (w.val * 49 + s.val) * 1 + 0
    omega)

/-- Every entry of row `(w, s)` of the spread maximum is that row's maximum. -/
theorem rowMaxK_apply (l : FVec Ideal S16x49x49 .f32) (w : Fin 16) (s t : Fin 49) :
    rowMaxK (F := Ideal) l (ix3 w s t) = WinAttn.rowMax (fun t' => l (ix3 w s t')) := by
  unfold rowMaxK
  rw [spread_apply, maximumf_apply, broadcast_apply]
  unfold WinAttn.rowMax
  refine congrArg (max _) ?_
  refine (Ideal.multiReduction_maximumf_single l _ reduces_S16x49x49_S16x49 _ _ (ix2 w s)).trans ?_
  have hf : (l ∘ (reduces_S16x49x49_S16x49).lift (ix2 w s)) = fun k : Fin 49 => l (ix3 w s k) :=
    funext fun k => congrArg l (lift_row _ w s k)
  exact congrArg (fun f => Finset.fold max (Ideal.ofBits .f32 0xFF800000#32) f (Finset.univ : Finset (Fin 49))) hf

/-- The exponential of a score less its row's maximum. -/
theorem expoK_apply (l : FVec Ideal S16x49x49 .f32) (w : Fin 16) (s t : Fin 49) :
    expoK (F := Ideal) l (ix3 w s t) = WinAttn.expo (fun t' => l (ix3 w s t')) t := by
  unfold expoK WinAttn.expo
  show Ideal.exp (subf l (rowMaxK l) (ix3 w s t)) = _
  rw [subf_apply, rowMaxK_apply]

/-- Every entry of row `(w, s)` of the spread sum is that row's sum. -/
theorem rowSumK_apply (p : FVec Ideal S16x49x49 .f32) (w : Fin 16) (s t : Fin 49) :
    rowSumK (F := Ideal) p (ix3 w s t) = ∑ u : Fin 49, p (ix3 w s u) := by
  unfold rowSumK
  rw [spread_apply]
  refine (Ideal.multiReduction_add_single p _ reduces_S16x49x49_S16x49 _ _ (ix2 w s)).trans ?_
  exact Finset.sum_congr rfl fun k _ => congrArg p (lift_row _ w s k)

/-- The weights are the softmax of the row of scores. -/
theorem weights_apply (l : FVec Ideal S16x49x49 .f32) (w : Fin 16) (s t : Fin 49) :
    weights (F := Ideal) l (ix3 w s t) = WinAttn.soft (fun t' => l (ix3 w s t')) t := by
  unfold weights WinAttn.soft
  rw [truncf_apply, divf_apply, rowSumK_apply, expoK_apply]
  refine congrArg (Ideal.div _) (Finset.sum_congr rfl fun u _ => ?_)
  rw [expoK_apply]

/-! ## The weighted sum of the value rows, unfolded to 784 rows -/

/-- The dimension numbers of the weighted sum: windows are the batch, the 49 tokens are summed. -/
abbrev dotPV : DotDims S16x49x49 S16x49x32 S16x49x32 := dot_S16x49x49_S16x49x32_S16x49x32_2_1_1_2_0_0

theorem lhsPV_0 (i : S16x49x32.Idx) (q : dotPV.contr.Idx) : (dotPV.lhsIdx i q 0).val = (i 0).val := by
  unfold DotDims.lhsIdx
  rw [dif_pos (show (0 : Fin S16x49x49.rank) ∈ dotPV.lhsBatch by decide)]
  rfl
theorem lhsPV_1 (i : S16x49x32.Idx) (q : dotPV.contr.Idx) : (dotPV.lhsIdx i q 1).val = (i 1).val := by
  unfold DotDims.lhsIdx
  rw [dif_neg (show ¬(1 : Fin S16x49x49.rank) ∈ dotPV.lhsBatch by decide),
    dif_pos (show (1 : Fin S16x49x49.rank) ∈ dotPV.lhsNonContracting by decide)]
  rfl
theorem lhsPV_2 (i : S16x49x32.Idx) (q : dotPV.contr.Idx) : (dotPV.lhsIdx i q 2).val = (q ⟨0, by decide⟩).val :=
  dotPV.lhsIdx_val_of_single rfl i q
theorem rhsPV_0 (i : S16x49x32.Idx) (q : dotPV.contr.Idx) : (dotPV.rhsIdx i q 0).val = (i 0).val := by
  unfold DotDims.rhsIdx
  rw [dif_pos (show (0 : Fin S16x49x32.rank) ∈ dotPV.rhsBatch by decide)]
  rfl
theorem rhsPV_1 (i : S16x49x32.Idx) (q : dotPV.contr.Idx) : (dotPV.rhsIdx i q 1).val = (q ⟨0, by decide⟩).val :=
  dotPV.rhsIdx_val_of_single rfl i q
theorem rhsPV_2 (i : S16x49x32.Idx) (q : dotPV.contr.Idx) : (dotPV.rhsIdx i q 2).val = (i 2).val := by
  unfold DotDims.rhsIdx
  rw [dif_neg (show ¬(2 : Fin S16x49x32.rank) ∈ dotPV.rhsBatch by decide),
    dif_pos (show (2 : Fin S16x49x32.rank) ∈ dotPV.rhsNonContracting by decide)]
  rfl

/-- Row `w·49 + s`, column `e` of the unfolded result: the softmax-weighted sum of the value rows of window `w`. -/
theorem mix_apply (l : FVec Ideal S16x49x49 .f32) (v : FVec Ideal S16x49x32 .bf16) (w : Fin 16) (s : Fin 49) (e : Fin 32) :
    mix (F := Ideal) l v (ix2 (row w s) e) = ∑ t : Fin 49, WinAttn.soft (fun t' => l (ix3 w s t')) t * v (ix3 w t e) := by
  unfold mix
  refine (shapeCast_apply _ _ (ix2 (row w s) e) (ix3 w s e) (by
    rw [Shape.rowMajor_val_two, Shape.rowMajor_val_three]
    show (w.val * 49 + s.val) * 32 + e.val = (w.val * 49 + s.val) * 32 + e.val
    rfl)).trans ?_
  simp only [matmul]
  rw [Ideal.matmul_constant_zero_apply, ← Equiv.sum_comp (contrEquiv1 dotPV 49 rfl rfl).symm]
  refine Finset.sum_congr rfl fun t _ => ?_
  have ht := contrEquiv1_symm_val dotPV 49 rfl rfl t
  have el : dotPV.lhsIdx (ix3 w s e) ((contrEquiv1 dotPV 49 rfl rfl).symm t) = ix3 w s t := funext fun a => Fin.ext (by
    match a with
    | ⟨0, _⟩ => exact lhsPV_0 _ _
    | ⟨1, _⟩ => exact lhsPV_1 _ _
    | ⟨2, _⟩ => exact (lhsPV_2 _ _).trans ht)
  have er : dotPV.rhsIdx (ix3 w s e) ((contrEquiv1 dotPV 49 rfl rfl).symm t) = ix3 w t e := funext fun a => Fin.ext (by
    match a with
    | ⟨0, _⟩ => exact rhsPV_0 _ _
    | ⟨1, _⟩ => exact (rhsPV_1 _ _).trans ht
    | ⟨2, _⟩ => exact rhsPV_2 _ _)
  rw [el, er, weights_apply]

/-! ## One head -/

theorem headAt_apply (v7 v8 v9 : FVec Ideal S784x384 .f32) (o : Nat) (hs : S784x384.Slices ![0, o] S784x32) (ho : o + 32 ≤ 384)
    (w : Fin 16) (s : Fin 49) (e : Fin 32) :
    headAt (F := Ideal) v7 v8 v9 o hs (ix2 (row w s) e)
      = WinAttn.attnHead (fun s' e' => v7 (ix2 (row w s') (colAt o ho e'))) (fun s' e' => v8 (ix2 (row w s') (colAt o ho e')))
          (fun s' e' => v9 (ix2 (row w s') (colAt o ho e'))) s e := by
  unfold headAt WinAttn.attnHead
  rw [mix_apply]
  have hL : (fun t' => scores (F := Ideal) (part v7 o hs) (part v8 o hs) (ix3 w s t'))
      = WinAttn.score (fun s' e' => v7 (ix2 (row w s') (colAt o ho e'))) (fun s' e' => v8 (ix2 (row w s') (colAt o ho e'))) s :=
    funext fun t' => by
      rw [scores_apply]
      unfold WinAttn.score
      refine congrArg (· * _) (Finset.sum_congr rfl fun e' _ => ?_)
      rw [part_apply v7 o hs ho, part_apply v8 o hs ho]
  rw [hL]
  refine Finset.sum_congr rfl fun t _ => ?_
  rw [part_apply v9 o hs ho]

end Cert.KernelIdeal.Body

end
-- ==== Proof.BodyValue.lean ====
/-
  What the kernel body leaves in the output block, read at an entry: window `w` of the block, token `s`, channel `d`
  is the windowed attention of that window's 49 rows of the input block.
-/
import proofs.«164484_j4793183502520_1_alg».proof.Proof.HeadK
import proofs.«164484_j4793183502520_1_alg».proof.Proof.Gen.KernelIdeal.Frame

noncomputable section

namespace Cert.KernelIdeal.Body

open Idealize.ShloMosaic Idealize.ShloMosaic.ValueIdx Idealize.SL.Sem Cert.KernelIdeal Cert.KernelIdeal.Gen

section AnyF
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

theorem head2_eq (v7 v8 v9 : FVec F S784x384 .f32) :
    k0_pay9 v7 v8 v9 = headAt v7 v8 v9 64 slices_S784x384_o0_64_S784x32 := rfl
theorem head3_eq (v7 v8 v9 : FVec F S784x384 .f32) :
    k0_pay13 (k0_pay10 v7) (k0_pay11 v8) (k0_pay12 v9) = headAt v7 v8 v9 96 slices_S784x384_o0_96_S784x32 := rfl
theorem head4_eq (v7 v8 v9 : FVec F S784x384 .f32) :
    k0_pay14 v7 v8 v9 = headAt v7 v8 v9 128 slices_S784x384_o0_128_S784x32 := rfl
theorem head5_eq (v7 v8 v9 : FVec F S784x384 .f32) :
    k0_pay16 v8 v9 (k0_pay15 v7) = headAt v7 v8 v9 160 slices_S784x384_o0_160_S784x32 := rfl
theorem head6_eq (v7 v8 v9 : FVec F S784x384 .f32) :
    k0_pay18 (k0_pay17 v7 v8 v9) = headAt v7 v8 v9 192 slices_S784x384_o0_192_S784x32 := rfl
theorem head7_eq (v7 v8 v9 : FVec F S784x384 .f32) :
    k0_pay19 v7 v8 v9 = headAt v7 v8 v9 224 slices_S784x384_o0_224_S784x32 := rfl
theorem head8_eq (v7 v8 v9 : FVec F S784x384 .f32) :
    k0_pay23 (k0_pay20 v9) (k0_pay21 v7 v8) (k0_pay22 v7 v8) = headAt v7 v8 v9 256 slices_S784x384_o0_256_S784x32 := rfl
theorem head9_eq (v7 v8 v9 : FVec F S784x384 .f32) :
    k0_pay24 v7 v8 v9 = headAt v7 v8 v9 288 slices_S784x384_o0_288_S784x32 := rfl

end AnyF

section AnyF2
variable {F : FTy → Type} [FloatOps F]

/-- The twelve heads of the three parts, as a list of pieces: head `h` reads columns `32·h … 32·h+31`. -/
def headList (v7 v8 v9 : FVec F S784x384 .f32) : List ((s : Shape) × (s.Idx → F .f32)) :=
  [⟨S784x32, headAt v7 v8 v9 0 slices_S784x384_o0_0_S784x32⟩, ⟨S784x32, headAt v7 v8 v9 32 slices_S784x384_o0_32_S784x32⟩,
   ⟨S784x32, headAt v7 v8 v9 64 slices_S784x384_o0_64_S784x32⟩, ⟨S784x32, headAt v7 v8 v9 96 slices_S784x384_o0_96_S784x32⟩,
   ⟨S784x32, headAt v7 v8 v9 128 slices_S784x384_o0_128_S784x32⟩, ⟨S784x32, headAt v7 v8 v9 160 slices_S784x384_o0_160_S784x32⟩,
   ⟨S784x32, headAt v7 v8 v9 192 slices_S784x384_o0_192_S784x32⟩, ⟨S784x32, headAt v7 v8 v9 224 slices_S784x384_o0_224_S784x32⟩,
   ⟨S784x32, headAt v7 v8 v9 256 slices_S784x384_o0_256_S784x32⟩, ⟨S784x32, headAt v7 v8 v9 288 slices_S784x384_o0_288_S784x32⟩,
   ⟨S784x32, headAt v7 v8 v9 320 slices_S784x384_o0_320_S784x32⟩, ⟨S784x32, headAt v7 v8 v9 352 slices_S784x384_o0_352_S784x32⟩]

/-- The tail of the body, which finishes heads 10 and 11 itself, is `finish` of the twelve heads. -/
theorem tail_eq (v7 v8 v9 : FVec F S784x384 .f32) (x2 : Vec F S384x384 .f32) (x3 : Vec F S1x384 .f32) :
    k0_pay27 v7 v8 v9 (headAt v7 v8 v9 0 slices_S784x384_o0_0_S784x32) (headAt v7 v8 v9 32 slices_S784x384_o0_32_S784x32)
      (headAt v7 v8 v9 64 slices_S784x384_o0_64_S784x32) (headAt v7 v8 v9 96 slices_S784x384_o0_96_S784x32)
      (headAt v7 v8 v9 128 slices_S784x384_o0_128_S784x32) (headAt v7 v8 v9 160 slices_S784x384_o0_160_S784x32)
      (headAt v7 v8 v9 192 slices_S784x384_o0_192_S784x32) (headAt v7 v8 v9 224 slices_S784x384_o0_224_S784x32)
      (headAt v7 v8 v9 256 slices_S784x384_o0_256_S784x32) (headAt v7 v8 v9 288 slices_S784x384_o0_288_S784x32)
      (k0_pay25 v9) (k0_pay26 v7 v8) x2 x3
      = finish (headList v7 v8 v9)
          concatenates_S784x32_S784x32_S784x32_S784x32_S784x32_S784x32_S784x32_S784x32_S784x32_S784x32_S784x32_S784x32_S784x384_d1 x2 x3 := rfl

/-- The body's one store holds `finish` of the twelve heads of the three parts of the fused projection. -/
theorem out_eq_finish (x0 : Vec F S16x49x384 .f32) (x1 : Vec F S1152x384 .f32) (x2 : Vec F S384x384 .f32) (x3 : Vec F S1x384 .f32) :
    out0_4 x0 x1 x2 x3 = finish (headList (k0_pay2 x0 x1) (k0_pay3 x0 x1) (k0_pay4 x0 x1))
      concatenates_S784x32_S784x32_S784x32_S784x32_S784x32_S784x32_S784x32_S784x32_S784x32_S784x32_S784x32_S784x32_S784x384_d1 x2 x3 := by
  unfold out0_4
  rw [View.canon_unit_zero hz3]
  simp only [View.ld_unit_zero (S := S16x49x384) hz3, View.ld_unit_zero (S := S1152x384) hz2, View.ld_unit_zero (S := S384x384) hz2,
    View.ld_unit_zero (S := S1x384) hz2]
  rw [head0_eq, head1_eq, head2_eq, head3_eq, head4_eq, head5_eq, head6_eq, head7_eq, head8_eq, head9_eq]
  exact tail_eq _ _ _ x2 x3

end AnyF2

/-! ## The two plain matrix products at an entry -/

theorem fused_lhs0 (i : S784x1152.Idx) (q : dot_S784x384_S1152x384_S784x1152_1_1_0_0_n_n.contr.Idx) : (dot_S784x384_S1152x384_S784x1152_1_1_0_0_n_n.lhsIdx i q 0).val = (i 0).val := by
  unfold DotDims.lhsIdx
  rw [dif_neg (show ¬(0 : Fin S784x384.rank) ∈ dot_S784x384_S1152x384_S784x1152_1_1_0_0_n_n.lhsBatch by decide), dif_pos (show (0 : Fin S784x384.rank) ∈ dot_S784x384_S1152x384_S784x1152_1_1_0_0_n_n.lhsNonContracting by decide)]
  rfl
theorem fused_lhs1 (i : S784x1152.Idx) (q : dot_S784x384_S1152x384_S784x1152_1_1_0_0_n_n.contr.Idx) : (dot_S784x384_S1152x384_S784x1152_1_1_0_0_n_n.lhsIdx i q 1).val = (q ⟨0, by decide⟩).val :=
  dot_S784x384_S1152x384_S784x1152_1_1_0_0_n_n.lhsIdx_val_of_single rfl i q
theorem fused_rhs0 (i : S784x1152.Idx) (q : dot_S784x384_S1152x384_S784x1152_1_1_0_0_n_n.contr.Idx) : (dot_S784x384_S1152x384_S784x1152_1_1_0_0_n_n.rhsIdx i q 0).val = (i 1).val := by
  unfold DotDims.rhsIdx
  rw [dif_neg (show ¬(0 : Fin S1152x384.rank) ∈ dot_S784x384_S1152x384_S784x1152_1_1_0_0_n_n.rhsBatch by decide), dif_pos (show (0 : Fin S1152x384.rank) ∈ dot_S784x384_S1152x384_S784x1152_1_1_0_0_n_n.rhsNonContracting by decide)]
  rfl
theorem fused_rhs1 (i : S784x1152.Idx) (q : dot_S784x384_S1152x384_S784x1152_1_1_0_0_n_n.contr.Idx) : (dot_S784x384_S1152x384_S784x1152_1_1_0_0_n_n.rhsIdx i q 1).val = (q ⟨0, by decide⟩).val :=
  dot_S784x384_S1152x384_S784x1152_1_1_0_0_n_n.rhsIdx_val_of_single rfl i q

/-- The fused projection at row `r`, column `j`: the inner product of row `r` of the left operand and row `j` of the right one. -/
theorem fused_apply {φ₁ φ₂ : FTy} (a : FVec Ideal S784x384 φ₁) (b : FVec Ideal S1152x384 φ₂) (r : Fin 784) (j : Fin 1152) :
    matmul dot_S784x384_S1152x384_S784x1152_1_1_0_0_n_n none a b (constant S784x1152 .f32 0x00000000#32) (ix2 r j) = ∑ c : Fin 384, a (ix2 r c) * b (ix2 j c) := by
  refine (Ideal.matmul_constant_zero_apply dot_S784x384_S1152x384_S784x1152_1_1_0_0_n_n none a b (ix2 r j)).trans ?_
  rw [← Equiv.sum_comp (contrEquiv1 dot_S784x384_S1152x384_S784x1152_1_1_0_0_n_n 384 rfl rfl).symm]
  refine Finset.sum_congr rfl fun k _ => ?_
  have hk := contrEquiv1_symm_val dot_S784x384_S1152x384_S784x1152_1_1_0_0_n_n 384 rfl rfl k
  have el : dot_S784x384_S1152x384_S784x1152_1_1_0_0_n_n.lhsIdx (ix2 r j) ((contrEquiv1 dot_S784x384_S1152x384_S784x1152_1_1_0_0_n_n 384 rfl rfl).symm k) = ix2 r k := funext fun t => Fin.ext (by
    match t with
    | ⟨0, _⟩ => exact fused_lhs0 _ _
    | ⟨1, _⟩ => exact (fused_lhs1 _ _).trans hk)
  have er : dot_S784x384_S1152x384_S784x1152_1_1_0_0_n_n.rhsIdx (ix2 r j) ((contrEquiv1 dot_S784x384_S1152x384_S784x1152_1_1_0_0_n_n 384 rfl rfl).symm k) = ix2 j k := funext fun t => Fin.ext (by
    match t with
    | ⟨0, _⟩ => exact fused_rhs0 _ _
    | ⟨1, _⟩ => exact (fused_rhs1 _ _).trans hk)
  rw [el, er]

theorem proj_lhs0 (i : S784x384.Idx) (q : dot_S784x384_S384x384_S784x384_1_1_0_0_n_n.contr.Idx) : (dot_S784x384_S384x384_S784x384_1_1_0_0_n_n.lhsIdx i q 0).val = (i 0).val := by
  unfold DotDims.lhsIdx
  rw [dif_neg (show ¬(0 : Fin S784x384.rank) ∈ dot_S784x384_S384x384_S784x384_1_1_0_0_n_n.lhsBatch by decide), dif_pos (show (0 : Fin S784x384.rank) ∈ dot_S784x384_S384x384_S784x384_1_1_0_0_n_n.lhsNonContracting by decide)]
  rfl
theorem proj_lhs1 (i : S784x384.Idx) (q : dot_S784x384_S384x384_S784x384_1_1_0_0_n_n.contr.Idx) : (dot_S784x384_S384x384_S784x384_1_1_0_0_n_n.lhsIdx i q 1).val = (q ⟨0, by decide⟩).val :=
  dot_S784x384_S384x384_S784x384_1_1_0_0_n_n.lhsIdx_val_of_single rfl i q
theorem proj_rhs0 (i : S784x384.Idx) (q : dot_S784x384_S384x384_S784x384_1_1_0_0_n_n.contr.Idx) : (dot_S784x384_S384x384_S784x384_1_1_0_0_n_n.rhsIdx i q 0).val = (i 1).val := by
  unfold DotDims.rhsIdx
  rw [dif_neg (show ¬(0 : Fin S384x384.rank) ∈ dot_S784x384_S384x384_S784x384_1_1_0_0_n_n.rhsBatch by decide), dif_pos (show (0 : Fin S384x384.rank) ∈ dot_S784x384_S384x384_S784x384_1_1_0_0_n_n.rhsNonContracting by decide)]
  rfl
theorem proj_rhs1 (i : S784x384.Idx) (q : dot_S784x384_S384x384_S784x384_1_1_0_0_n_n.contr.Idx) : (dot_S784x384_S384x384_S784x384_1_1_0_0_n_n.rhsIdx i q 1).val = (q ⟨0, by decide⟩).val :=
  dot_S784x384_S384x384_S784x384_1_1_0_0_n_n.rhsIdx_val_of_single rfl i q

/-- The last projection at row `r`, column `j`: the inner product of row `r` of the left operand and row `j` of the right one. -/
theorem proj_apply {φ₁ φ₂ : FTy} (a : FVec Ideal S784x384 φ₁) (b : FVec Ideal S384x384 φ₂) (r : Fin 784) (j : Fin 384) :
    matmul dot_S784x384_S384x384_S784x384_1_1_0_0_n_n none a b (constant S784x384 .f32 0x00000000#32) (ix2 r j) = ∑ c : Fin 384, a (ix2 r c) * b (ix2 j c) := by
  refine (Ideal.matmul_constant_zero_apply dot_S784x384_S384x384_S784x384_1_1_0_0_n_n none a b (ix2 r j)).trans ?_
  rw [← Equiv.sum_comp (contrEquiv1 dot_S784x384_S384x384_S784x384_1_1_0_0_n_n 384 rfl rfl).symm]
  refine Finset.sum_congr rfl fun k _ => ?_
  have hk := contrEquiv1_symm_val dot_S784x384_S384x384_S784x384_1_1_0_0_n_n 384 rfl rfl k
  have el : dot_S784x384_S384x384_S784x384_1_1_0_0_n_n.lhsIdx (ix2 r j) ((contrEquiv1 dot_S784x384_S384x384_S784x384_1_1_0_0_n_n 384 rfl rfl).symm k) = ix2 r k := funext fun t => Fin.ext (by
    match t with
    | ⟨0, _⟩ => exact proj_lhs0 _ _
    | ⟨1, _⟩ => exact (proj_lhs1 _ _).trans hk)
  have er : dot_S784x384_S384x384_S784x384_1_1_0_0_n_n.rhsIdx (ix2 r j) ((contrEquiv1 dot_S784x384_S384x384_S784x384_1_1_0_0_n_n 384 rfl rfl).symm k) = ix2 j k := funext fun t => Fin.ext (by
    match t with
    | ⟨0, _⟩ => exact proj_rhs0 _ _
    | ⟨1, _⟩ => exact (proj_rhs1 _ _).trans hk)
  rw [el, er]

/-! ## The fused projection and its three parts at an entry -/

/-- Row `w·49 + s'` of the block folded to 784 rows is token `s'` of window `w`; the fused projection there is the
    inner product of that token's 384 channels with row `j` of the fused weight. -/
theorem pay1_apply (x0 : Vec Ideal S16x49x384 .f32) (x1 : Vec Ideal S1152x384 .f32) (w : Fin 16) (s' : Fin 49) (j : Fin 1152) :
    k0_pay1 (F := Ideal) x0 x1 (ix2 (row w s') j)
      = WinAttn.qkv (fun s' c => x0 (ix3 w s' c)) (fun j c => x1 (ix2 j c)) s' j := by
  unfold k0_pay1 WinAttn.qkv
  refine (fused_apply _ _ (row w s') j).trans ?_
  refine Finset.sum_congr rfl fun c _ => ?_
  rw [truncf_apply, truncf_apply, shapeCast_self,
    shapeCast_apply x0 shapeCasts_S16x49x384_S784x384 (ix2 (row w s') c) (ix3 w s' c)
      (by rw [Shape.rowMajor_val_three, Shape.rowMajor_val_two]; rfl)]

theorem partQ_apply (x0 : Vec Ideal S16x49x384 .f32) (x1 : Vec Ideal S1152x384 .f32) (w : Fin 16) (h : Fin 12)
    (ho : 32 * h.val + 32 ≤ 384) (s' : Fin 49) (e' : Fin 32) :
    k0_pay2 (F := Ideal) x0 x1 (ix2 (row w s') (colAt (32 * h.val) ho e'))
      = WinAttn.qkv (fun s' c => x0 (ix3 w s' c)) (fun j c => x1 (ix2 j c)) s' (WinAttn.col 0 h e') := by
  unfold k0_pay2
  refine (extractStridedSlice_apply ![0, 0] (k0_pay1 x0 x1) slices_S784x1152_o0_0_S784x384 (ix2 (row w s') (colAt (32 * h.val) ho e'))
    (ix2 (row w s') (WinAttn.col 0 h e')) (fun a => ?_)).trans (pay1_apply x0 x1 w s' _)
  match a with
  | ⟨0, _⟩ => show (row w s').val = 0 + (row w s').val; omega
  | ⟨1, _⟩ => show ((0 : Fin 3).val * 12 + h.val) * 32 + e'.val = 0 + (32 * h.val + e'.val); simp only [Fin.val_zero]; omega

theorem partK_apply (x0 : Vec Ideal S16x49x384 .f32) (x1 : Vec Ideal S1152x384 .f32) (w : Fin 16) (h : Fin 12)
    (ho : 32 * h.val + 32 ≤ 384) (s' : Fin 49) (e' : Fin 32) :
    k0_pay3 (F := Ideal) x0 x1 (ix2 (row w s') (colAt (32 * h.val) ho e'))
      = WinAttn.qkv (fun s' c => x0 (ix3 w s' c)) (fun j c => x1 (ix2 j c)) s' (WinAttn.col 1 h e') := by
  unfold k0_pay3
  refine (extractStridedSlice_apply ![0, 384] (k0_pay1 x0 x1) slices_S784x1152_o0_384_S784x384 (ix2 (row w s') (colAt (32 * h.val) ho e'))
    (ix2 (row w s') (WinAttn.col 1 h e')) (fun a => ?_)).trans (pay1_apply x0 x1 w s' _)
  match a with
  | ⟨0, _⟩ => show (row w s').val = 0 + (row w s').val; omega
  | ⟨1, _⟩ => show ((1 : Fin 3).val * 12 + h.val) * 32 + e'.val = 384 + (32 * h.val + e'.val); simp only [Fin.val_one]; omega

theorem partV_apply (x0 : Vec Ideal S16x49x384 .f32) (x1 : Vec Ideal S1152x384 .f32) (w : Fin 16) (h : Fin 12)
    (ho : 32 * h.val + 32 ≤ 384) (s' : Fin 49) (e' : Fin 32) :
    k0_pay4 (F := Ideal) x0 x1 (ix2 (row w s') (colAt (32 * h.val) ho e'))
      = WinAttn.qkv (fun s' c => x0 (ix3 w s' c)) (fun j c => x1 (ix2 j c)) s' (WinAttn.col 2 h e') := by
  unfold k0_pay4
  refine (extractStridedSlice_apply ![0, 768] (k0_pay1 x0 x1) slices_S784x1152_o0_768_S784x384 (ix2 (row w s') (colAt (32 * h.val) ho e'))
    (ix2 (row w s') (WinAttn.col 2 h e')) (fun a => ?_)).trans (pay1_apply x0 x1 w s' _)
  match a with
  | ⟨0, _⟩ => show (row w s').val = 0 + (row w s').val; omega
  | ⟨1, _⟩ => show ((2 : Fin 3).val * 12 + h.val) * 32 + e'.val = 768 + (32 * h.val + e'.val); simp only [Fin.val_two]; omega

/-! ## The tail of the body at an entry -/

/-- Head `n`'s 32 columns lie inside the 384. -/
theorem headSlices (n : Fin 12) : S784x384.Slices ![0, 32 * n.val] S784x32 :=
  ⟨rfl, fun a => by
    match a with
    | ⟨0, _⟩ => show 0 + 784 ≤ 784; omega
    | ⟨1, _⟩ => show 32 * n.val + 32 ≤ 384; have := n.isLt; omega⟩

/-- Column `c` of the twelve heads side by side is column `c % 32` of head `c / 32`. -/
theorem concat_heads {F : FTy → Type} [FloatOps F] (v7 v8 v9 : FVec F S784x384 .f32)
    (hc : Shape.Concatenates ((headList v7 v8 v9).map (·.1)) S784x384 1) (r : Fin 784) (c : Fin 384)
    (hn : c.val / 32 < 12) (he : c.val % 32 < 32) :
    concatenate S784x384 1 (headList v7 v8 v9) hc (ix2 r c)
      = headAt v7 v8 v9 (32 * (⟨c.val / 32, hn⟩ : Fin 12).val) (headSlices ⟨c.val / 32, hn⟩) (ix2 r ⟨c.val % 32, he⟩) :=
  concatenate_ofFn_apply (t := S784x384) (s₁ := S784x32) 1 (fun n : Fin 12 => headAt v7 v8 v9 (32 * n.val) (headSlices n)) hc rfl 32 rfl
    (ix2 r c) ⟨c.val / 32, hn⟩ rfl (ix2 r ⟨c.val % 32, he⟩) rfl (fun b hb => by
      match b with
      | ⟨0, _⟩ => rfl
      | ⟨1, _⟩ => exact absurd rfl hb)

/-- The tail at window `w`, token `s`, channel `d`: row `w·49 + s` of the heads side by side against row `d` of the
    projection weight, plus entry `d` of the bias row. -/
theorem finish_apply (hd : List ((s : Shape) × (s.Idx → Ideal .f32))) (hc : Shape.Concatenates (hd.map (·.1)) S784x384 1)
    (x2 : Vec Ideal S384x384 .f32) (x3 : Vec Ideal S1x384 .f32) (w : Fin 16) (s : Fin 49) (d : Fin 384) :
    finish (F := Ideal) hd hc x2 x3 (ix3 w s d)
      = (∑ c : Fin 384, concatenate S784x384 1 hd hc (ix2 (row w s) c) * x2 (ix2 d c)) + x3 (ix2 (0 : Fin 1) d) := by
  unfold finish
  rw [shapeCast_apply _ shapeCasts_S784x384_S16x49x384 (ix3 w s d) (ix2 (row w s) d)
    (by rw [Shape.rowMajor_val_three, Shape.rowMajor_val_two]; rfl), addf_apply]
  refine congrArg₂ (· + ·) ((proj_apply _ _ (row w s) d).trans (Finset.sum_congr rfl fun c _ => ?_)) ?_
  · rw [truncf_apply, truncf_apply]
  · rw [shapeCast_self]
    exact broadcastTo_apply x3 broadcasts_S1x384_S784x384 (ix2 (row w s) d) (ix2 (0 : Fin 1) d) (fun a => by
      match a with
      | ⟨0, _⟩ => rfl
      | ⟨1, _⟩ => rfl)

/-! ## The whole -/

/-- An attention head depends on its queries, keys and values entry by entry. -/
private theorem attnHead_congr {q q' k k' v v' : Fin 49 → Fin 32 → EReal} (hq : ∀ s e, q s e = q' s e) (hk : ∀ s e, k s e = k' s e)
    (hv : ∀ s e, v s e = v' s e) (s : Fin 49) (e : Fin 32) : WinAttn.attnHead q k v s e = WinAttn.attnHead q' k' v' s e := by
  have eq : q = q' := funext fun s => funext fun e => hq s e
  have ek : k = k' := funext fun s => funext fun e => hk s e
  have ev : v = v' := funext fun s => funext fun e => hv s e
  rw [eq, ek, ev]

theorem out_apply (x0 : Vec Ideal S16x49x384 .f32) (x1 : Vec Ideal S1152x384 .f32) (x2 : Vec Ideal S384x384 .f32) (x3 : Vec Ideal S1x384 .f32)
    (w : Fin 16) (s : Fin 49) (d : Fin 384) :
    out0_4 (F := Ideal) x0 x1 x2 x3 (ix3 w s d)
      = WinAttn.winAttn (fun s' c => x0 (ix3 w s' c)) (fun j c => x1 (ix2 j c)) (fun d' c => x2 (ix2 d' c))
          (fun d' => x3 (ix2 (0 : Fin 1) d')) s d := by
  refine ((congrFun (out_eq_finish x0 x1 x2 x3) (ix3 w s d)).trans (finish_apply _ _ x2 x3 w s d)).trans ?_
  unfold WinAttn.winAttn WinAttn.heads WinAttn.head
  refine congrArg₂ (· + ·) (Finset.sum_congr rfl fun c _ => congrArg₂ (· * ·) ?_ rfl) rfl
  have hn : c.val / 32 < 12 := by have := c.isLt; omega
  have he : c.val % 32 < 32 := Nat.mod_lt _ (by decide)
  have ho : 32 * (⟨c.val / 32, hn⟩ : Fin 12).val + 32 ≤ 384 := by show 32 * (c.val / 32) + 32 ≤ 384; omega
  refine ((concat_heads _ _ _ _ (row w s) c hn he).trans (headAt_apply _ _ _ _ _ ho w s ⟨c.val % 32, he⟩)).trans ?_
  exact attnHead_congr (fun s' e' => partQ_apply x0 x1 w ⟨c.val / 32, hn⟩ ho s' e') (fun s' e' => partK_apply x0 x1 w ⟨c.val / 32, hn⟩ ho s' e')
    (fun s' e' => partV_apply x0 x1 w ⟨c.val / 32, hn⟩ ho s' e') s ⟨c.val % 32, he⟩

end Cert.KernelIdeal.Body

end
-- ==== Proof.Whole.lean ====
/-
  The whole computation both programs perform, as one function of the four argument arrays.

  The input [16, 3136, 384] is an image of 56×56 tokens per batch entry; the window partition re-lays it as 1024 windows
  of 7×7 = 49 tokens (a reshape to [16,8,7,8,7,384], the two middle axes exchanged, a reshape to [1024,49,384]); every
  window goes through the windowed attention of `Spec`; the window reverse is the inverse re-laying. Kernel and
  reference perform the partition and the reverse by the same four operations each, so they are carried here as two
  opaque functions, never opened.
-/
import proofs.«164484_j4793183502520_1_alg».proof.Proof.Spec
import Idealize.ShloMosaic.PureOps

noncomputable section

namespace Cert.WinAttn

open Idealize.ShloMosaic Idealize.ShloMosaic.ValueIdx

abbrev SImg : Shape := ⟨3, ![16, 3136, 384]⟩
abbrev SGrid : Shape := ⟨4, ![16, 56, 56, 384]⟩
abbrev SCut : Shape := ⟨6, ![16, 8, 7, 8, 7, 384]⟩
abbrev SSwap : Shape := ⟨6, ![16, 8, 8, 7, 7, 384]⟩
abbrev SWin : Shape := ⟨3, ![1024, 49, 384]⟩

theorem img_grid : SImg.ShapeCasts SGrid := by decide
theorem grid_cut : SGrid.ShapeCasts SCut := by decide
theorem cut_swap : SCut.Transposes [0, 1, 3, 2, 4, 5] SSwap := by decide
theorem swap_win : SSwap.ShapeCasts SWin := by decide
theorem win_swap : SWin.ShapeCasts SSwap := by decide
theorem swap_cut : SSwap.Transposes [0, 1, 3, 2, 4, 5] SCut := by decide
theorem cut_grid : SCut.ShapeCasts SGrid := by decide
theorem grid_img : SGrid.ShapeCasts SImg := by decide

/-- The window partition: the image re-laid as 1024 windows of 49 tokens. -/
def partition (x : SImg.Idx → EReal) : SWin.Idx → EReal :=
  shapeCast SWin (transpose SSwap [0, 1, 3, 2, 4, 5] (shapeCast SCut (shapeCast SGrid x img_grid) grid_cut) cut_swap) swap_win

/-- The window reverse: 1024 windows of 49 tokens re-laid as the image. -/
def unpartition (y : SWin.Idx → EReal) : SImg.Idx → EReal :=
  shapeCast SImg (shapeCast SGrid (transpose SCut [0, 1, 3, 2, 4, 5] (shapeCast SSwap y win_swap) swap_cut) cut_grid) grid_img

/-- Every window through the windowed attention: entry (w, s, d) depends on window `w` of the partitioned input only. -/
def attnAll (X : SWin.Idx → EReal) (W1 : (⟨2, ![1152, 384]⟩ : Shape).Idx → EReal) (W2 : (⟨2, ![384, 384]⟩ : Shape).Idx → EReal)
    (b : (⟨1, ![384]⟩ : Shape).Idx → EReal) : SWin.Idx → EReal := fun i =>
  winAttn (fun s c => X (ix3 (⟨(i 0).val, (i 0).isLt⟩ : Fin 1024) s c)) (fun j c => W1 (ix2 j c)) (fun d c => W2 (ix2 d c))
    (fun d => b (ix1 d)) (⟨(i 1).val, (i 1).isLt⟩ : Fin 49) (⟨(i 2).val, (i 2).isLt⟩ : Fin 384)

theorem attnAll_ix3 (X : SWin.Idx → EReal) (W1 : (⟨2, ![1152, 384]⟩ : Shape).Idx → EReal) (W2 : (⟨2, ![384, 384]⟩ : Shape).Idx → EReal)
    (b : (⟨1, ![384]⟩ : Shape).Idx → EReal) (w : Fin 1024) (s : Fin 49) (d : Fin 384) :
    attnAll X W1 W2 b (ix3 w s d)
      = winAttn (fun s' c => X (ix3 w s' c)) (fun j c => W1 (ix2 j c)) (fun d' c => W2 (ix2 d' c)) (fun d' => b (ix1 d')) s d := rfl

/-- The result of both programs. -/
def whole (x : SImg.Idx → EReal) (W1 : (⟨2, ![1152, 384]⟩ : Shape).Idx → EReal) (W2 : (⟨2, ![384, 384]⟩ : Shape).Idx → EReal)
    (b : (⟨1, ![384]⟩ : Shape).Idx → EReal) : SImg.Idx → EReal :=
  unpartition (attnAll (partition x) W1 W2 b)

end Cert.WinAttn

end
-- ==== Proof.KernelValue.lean ====
/-
  The kernel's result is the whole computation.

  The region's grid has 64 points; point `t` reads block `t` of the partitioned input (windows 16t … 16t+15), the whole
  of both weights and of the bias row, and writes block `t` of the output array. What it writes at (w', s, d) is the
  windowed attention of window 16t + w' (`out_apply`), so the 64 blocks, which tile the 1024 windows, make the output
  array the windowed attention of every window. The host operations before the region are the window partition (and
  a reshape of the bias to a row), those after it the window reverse.
-/
import proofs.«164484_j4793183502520_1_alg».proof.Proof.BodyValue
import proofs.«164484_j4793183502520_1_alg».proof.Proof.Whole
import Idealize.ShloMosaic.Lib.Pipeline.Value
import Idealize.ShloMosaic.Lib.ValueLayout
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them -/

/-- The region finds the partitioned input in its first window's array. -/
theorem V_main_v3 (c : Dev nD) :
    (V m c main_v3 : S1024x49x384.Idx → EReal) = WinAttn.partition (m ((c : Thread nD τ).loc main_arg0)) := by
  show StableHlo.after hostOps0 (fun b => m (c, b)) (Proc.devRef .tc main_v3) = _
  after_results
  rfl

/-- and the bias as a row in its fourth. -/
theorem V_main_v4 (c : Dev nD) :
    (V m c main_v4 : S1x384.Idx → EReal) = shapeCast S1x384 (m ((c : Thread nD τ).loc main_arg3)) shapeCasts_S384_S1x384 := by
  show StableHlo.after hostOps0 (fun b => m (c, b)) (Proc.devRef .tc main_v4) = _
  after_results
  rfl

/-! ## What each grid point writes back -/

/-- The output array as one function of the arrays the region finds. -/
def G (c : Dev nD) : S1024x49x384.Idx → EReal :=
  WinAttn.attnAll (V m c main_v3) (V m c main_arg1) (V m c main_arg2) (fun j => V m c main_v4 (ix2 (0 : Fin 1) ⟨(j 0).val, (j 0).isLt⟩))

/-- The printed index maps over the grid: the input's and the output's block index on the window axis is the point's
    number, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The body's result over literal block types, at an index of the block. -/
theorem out_block (x0 : Vec Ideal S16x49x384 .f32) (x1 : Vec Ideal S1152x384 .f32) (x2 : Vec Ideal S384x384 .f32) (x3 : Vec Ideal S1x384 .f32)
    (y : S16x49x384.Idx) :
    out0_4 (F := Ideal) x0 x1 x2 x3 y
      = WinAttn.winAttn (fun s' c => x0 (ix3 (⟨(y 0).val, (y 0).isLt⟩ : Fin 16) s' c)) (fun j c => x1 (ix2 j c)) (fun d' c => x2 (ix2 d' c))
          (fun d' => x3 (ix2 (0 : Fin 1) d')) (⟨(y 1).val, (y 1).isLt⟩ : Fin 49) (⟨(y 2).val, (y 2).isLt⟩ : Fin 384) := by
  obtain ⟨w, s, d, rfl⟩ : ∃ (w : Fin 16) (s : Fin 49) (d : Fin 384), y = ix3 w s d := ⟨y 0, y 1, y 2, eq_ix3 y⟩
  exact Body.out_apply x0 x1 x2 x3 w s d

/-- `G` at an index, spelt out. -/
theorem G_apply (c : Dev nD) (i : S1024x49x384.Idx) :
    G m c i = WinAttn.winAttn (fun s c' => V m c main_v3 (ix3 (⟨(i 0).val, (i 0).isLt⟩ : Fin 1024) s c')) (fun j c' => V m c main_arg1 (ix2 j c'))
      (fun d' c' => V m c main_arg2 (ix2 d' c')) (fun d' => V m c main_v4 (ix2 (0 : Fin 1) d'))
      (⟨(i 1).val, (i 1).isLt⟩ : Fin 49) (⟨(i 2).val, (i 2).isLt⟩ : Fin 384) := rfl

/-- The windowed attention at equal arguments. -/
theorem winAttn_eq {x x' : Fin 49 → Fin 384 → EReal} {w1 w1' : Fin 1152 → Fin 384 → EReal} {w2 w2' : Fin 384 → Fin 384 → EReal}
    {b b' : Fin 384 → EReal} {s s' : Fin 49} {d d' : Fin 384} (hx : x = x') (h1 : w1 = w1') (h2 : w2 = w2') (hb : b = b')
    (hs : s = s') (hd : d = d') : WinAttn.winAttn x w1 w2 b s d = WinAttn.winAttn x' w1' w2' b' s' d' := by
  subst hx h1 h2 hb hs hd; rfl

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨e00, e01, e02, e10, e11, e20, e21, e30, e31, e40, e41, e42⟩ := idx_facts t
  funext y
  refine (out_block (iblk m c 0 t) (iblk m c 1 t) (iblk m c 2 t) (iblk m c 3 t) y).trans ?_
  show _ = G m c (((cfg0.win 4).blk t).view.emb y)
  refine Eq.trans ?_ (G_apply m c _).symm
  refine winAttn_eq ?_ ?_ ?_ ?_ ?_ ?_
  · funext s' c'
    show V m c main_v3 (((cfg0.win 0).blk t).view.emb (ix3 (⟨(y 0).val, (y 0).isLt⟩ : Fin 16) s' c')) = V m c main_v3 _
    refine congrArg (V m c main_v3) (funext fun a => Fin.ext ?_)
    match a with
    | ⟨0, _⟩ => show win0_0.index t (0 : Fin 3) * 16 + 1 * (y 0).val = win0_4.index t (0 : Fin 3) * 16 + 1 * (y 0).val; omega
    | ⟨1, _⟩ => show win0_0.index t (1 : Fin 3) * 49 + 1 * s'.val = s'.val; omega
    | ⟨2, _⟩ => show win0_0.index t (2 : Fin 3) * 384 + 1 * c'.val = c'.val; omega
  · funext j c'
    show V m c main_arg1 (((cfg0.win 1).blk t).view.emb (ix2 j c')) = V m c main_arg1 _
    refine congrArg (V m c main_arg1) (funext fun a => Fin.ext ?_)
    match a with
    | ⟨0, _⟩ => show win0_1.index t (0 : Fin 2) * 1152 + 1 * j.val = j.val; omega
    | ⟨1, _⟩ => show win0_1.index t (1 : Fin 2) * 384 + 1 * c'.val = c'.val; omega
  · funext d' c'
    show V m c main_arg2 (((cfg0.win 2).blk t).view.emb (ix2 d' c')) = V m c main_arg2 _
    refine congrArg (V m c main_arg2) (funext fun a => Fin.ext ?_)
    match a with
    | ⟨0, _⟩ => show win0_2.index t (0 : Fin 2) * 384 + 1 * d'.val = d'.val; omega
    | ⟨1, _⟩ => show win0_2.index t (1 : Fin 2) * 384 + 1 * c'.val = c'.val; omega
  · funext d'
    show V m c main_v4 (((cfg0.win 3).blk t).view.emb (ix2 (0 : Fin 1) d')) = V m c main_v4 _
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 384 + 1 * d'.val = d'.val; omega
  · refine Fin.ext ?_
    show (y 1).val = win0_4.index t (1 : Fin 3) * 49 + 1 * (y 1).val; omega
  · refine Fin.ext ?_
    show (y 2).val = win0_4.index t (2 : Fin 3) * 384 + 1 * (y 2).val; omega

/-! ## The 64 blocks tile the output array -/

/-- An index of the output array is in point `t`'s block iff each coordinate is in the block's range on its axis. -/
theorem mem_blk (t : Fin cfg0.N) (i : S1024x49x384.Idx) :
    i ∈ ((cfg0.win 4).blk t).view.set ↔ ∀ a : Fin 3, win0_4.index t a * S16x49x384.size a ≤ (i a).val ∧ (i a).val < win0_4.index t a * S16x49x384.size a + S16x49x384.size a := by
  show i ∈ ((View.whole main_v5).slice (win0_4.rect t)).set ↔ _
  rw [View.set_slice_whole, Rect.mem_set_unit]
  exact Iff.rfl

/-- Every index of the output array is in the block of the point its window number over 16 names. -/
theorem cover (i : S1024x49x384.Idx) : ∃ t : Fin cfg0.N, (cfg0.win 4).flush t = true ∧ i ∈ ((cfg0.win 4).blk t).view.set := by
  have h0 : (i 0).val < 1024 := (i 0).isLt
  have h1 : (i 1).val < 49 := (i 1).isLt
  have h2 : (i 2).val < 384 := (i 2).isLt
  have hN : cfg0.N = 64 := N_0
  refine ⟨⟨(i 0).val / 16, by rw [hN]; omega⟩, flush0_4 _, ?_⟩
  rw [mem_blk]
  obtain ⟨-, -, -, -, -, -, -, -, -, e40, e41, e42⟩ := idx_facts ⟨(i 0).val / 16, by rw [hN]; omega⟩
  intro a
  match a with
  | ⟨0, _⟩ => show win0_4.index _ (0 : Fin 3) * 16 ≤ (i 0).val ∧ (i 0).val < win0_4.index _ (0 : Fin 3) * 16 + 16; rw [e40]; show (i 0).val / 16 * 16 ≤ (i 0).val ∧ (i 0).val < (i 0).val / 16 * 16 + 16; omega
  | ⟨1, _⟩ => show win0_4.index _ (1 : Fin 3) * 49 ≤ (i 1).val ∧ (i 1).val < win0_4.index _ (1 : Fin 3) * 49 + 49; rw [e41]; omega
  | ⟨2, _⟩ => show win0_4.index _ (2 : Fin 3) * 384 ≤ (i 2).val ∧ (i 2).val < win0_4.index _ (2 : Fin 3) * 384 + 384; rw [e42]; omega

/-- THE OUTPUT ARRAY after the run is `G`. -/
theorem final (c : Dev nD) : (dats m 0 c).arrAt 4 cfg0.N = G m c :=
  (dats m 0 c).arrAt_eq_of_cover 4 (G m c) (fun t _ => flushed_eq m c t) cover

/-! ## The result -/

/-- The bias row the region finds, read along the row, is the bias. -/
theorem bias_eq (c : Dev nD) :
    (fun j : (⟨1, ![384]⟩ : Shape).Idx => V m c main_v4 (ix2 (0 : Fin 1) (⟨(j 0).val, (j 0).isLt⟩ : Fin 384)))
      = m ((c : Thread nD τ).loc main_arg3) := by
  funext j
  obtain ⟨d, rfl⟩ : ∃ d : Fin 384, j = ix1 d := ⟨j 0, eq_ix1 j⟩
  rw [V_main_v4]
  exact shapeCast_a_1a_apply _ _ (0 : Fin 1) d

/-- The output array in terms of the arguments: every window of the partitioned input through the windowed attention. -/
theorem G_eq (c : Dev nD) :
    G m c = WinAttn.attnAll (WinAttn.partition (m ((c : Thread nD τ).loc main_arg0))) (m ((c : Thread nD τ).loc main_arg1))
      (m ((c : Thread nD τ).loc main_arg2)) (m ((c : Thread nD τ).loc main_arg3)) := by
  unfold G
  rw [bias_eq, V_main_v3, V_main_arg1, V_main_arg2]

/-- The four host operations after the region are the window reverse of the output array. -/
theorem tail_eq (c : Dev nD) :
    Pipeline.afterTail₀ cfgs (dats m) 0 (V0 m) [hostOps1] c main_v9
      = WinAttn.whole (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v9) = _
  after_results
  have hW : Pipeline.withArrays (cfgs 0).spec c (V0 m c) (fun w => (dats m 0 c).arrAt w (cfgs 0).N) (Proc.devRef .tc main_v5)
      = WinAttn.attnAll (WinAttn.partition (m ((c : Thread nD τ).loc main_arg0))) (m ((c : Thread nD τ).loc main_arg1))
          (m ((c : Thread nD τ).loc main_arg2)) (m ((c : Thread nD τ).loc main_arg3)) :=
    ((Pipeline.withArrays_arr spec0 launch0.win.arr_inj c _ _ 4).trans (final m c)).trans (G_eq m c)
  rw [hW]
  rfl

/-! ## The run, read -/

/-- From any memory with zero counters every weakly fair execution of the kernel's program terminates with the result
    at the whole computation of the arguments, the arguments unchanged. -/
theorem run : θ_run defs (onTc (τ := τ) (main (F := Ideal))) ⟨m, fun _ => 0, ρ⟩ fun r => ∀ c : Dev nD,
      r.2.mem ((c.tc : Thread nD τ).loc main_v9)
          = WinAttn.whole (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference between its window partition and its window reverse, read at an entry: window `w`, token `s`,
  channel `d` of the array before the window reverse is the windowed attention of window `w`'s 49 rows of the
  partitioned input.
-/
import proofs.«164484_j4793183502520_1_alg».proof.Proof.Gen.ReferenceIdeal.Read
import proofs.«164484_j4793183502520_1_alg».proof.Proof.Spec

noncomputable section

namespace Cert.ReferenceIdeal.RefValue

open Idealize.ShloMosaic Idealize.ShloMosaic.ValueIdx Idealize.SL.Sem Cert.ReferenceIdeal Cert.ReferenceIdeal.Gen Cert.ReferenceIdeal.Read

variable (x0 : (⟨S16x3136x384, .f32⟩ : BufTy).Contents (Elt Ideal)) (x1 : (⟨S1152x384, .f32⟩ : BufTy).Contents (Elt Ideal))

/-- The window's rows and the first weight as functions of coordinates. -/
abbrev xw (x0 : (⟨S16x3136x384, .f32⟩ : BufTy).Contents (Elt Ideal)) (w : Fin 1024) : Fin 49 → Fin 384 → EReal :=
  fun s' c => val_main_v3 (F := Ideal) x0 (ix3 w s' c)
abbrev w1 (x1 : (⟨S1152x384, .f32⟩ : BufTy).Contents (Elt Ideal)) : Fin 1152 → Fin 384 → EReal :=
  fun j c => x1 (ix2 j c)

/-- The fused projection at window `w`, token `s`, column `j`: the row of the window against row `j` of the weight. -/
theorem v4_at (w : Fin 1024) (s : Fin 49) (j : Fin 1152) :
    val_main_v4 (F := Ideal) x0 x1 (ix3 w s j) = WinAttn.qkv (xw x0 w) (w1 x1) s j := by
  rw [val_main_v4_apply]
  unfold WinAttn.qkv
  refine Finset.sum_congr rfl fun k _ => ?_
  have el : lidx_main_v4 (ix3 w s j) k = ix3 w s k := funext fun a => Fin.ext (by
    match a with
    | ⟨0, _⟩ => rfl
    | ⟨1, _⟩ => rfl
    | ⟨2, _⟩ => rfl)
  have er : ridx_main_v4 (ix3 w s j) k = ix2 j k := funext fun a => Fin.ext (by
    match a with
    | ⟨0, _⟩ => rfl
    | ⟨1, _⟩ => rfl)
  rw [el, er]

/-- The five-axis view of the projection: entry (w, s, a, h, e) is column (a·12 + h)·32 + e of token `s`. -/
theorem v5_at (w : Fin 1024) (s : Fin 49) (a : Fin 3) (h : Fin 12) (e : Fin 32) :
    val_main_v5 (F := Ideal) x0 x1 (ix5 w s a h e) = val_main_v4 (F := Ideal) x0 x1 (ix3 w s (WinAttn.col a h e)) := by
  rw [val_main_v5_apply]
  refine congrArg _ (funext fun b => Fin.ext ?_)
  have hw := w.isLt; have hs := s.isLt; have ha := a.isLt; have hh := h.isLt; have he := e.isLt
  match b with
  | ⟨0, _⟩ =>
    show ((((w.val * 49 + s.val) * 3 + a.val) * 12 + h.val) * 32 + e.val) / 56448 = w.val
    omega
  | ⟨1, _⟩ =>
    show ((((w.val * 49 + s.val) * 3 + a.val) * 12 + h.val) * 32 + e.val) / 1152 % 49 = s.val
    omega
  | ⟨2, _⟩ =>
    show ((((w.val * 49 + s.val) * 3 + a.val) * 12 + h.val) * 32 + e.val) % 1152 = (a.val * 12 + h.val) * 32 + e.val
    omega

/-- The transposed view: entry (a, w, h, s, e) is entry (w, s, a, h, e). -/
theorem v6_at (a : Fin 3) (w : Fin 1024) (h : Fin 12) (s : Fin 49) (e : Fin 32) :
    val_main_v6 (F := Ideal) x0 x1 (ix5 a w h s e) = val_main_v5 (F := Ideal) x0 x1 (ix5 w s a h e) := by
  rw [val_main_v6_apply]
  refine congrArg _ (funext fun b => Fin.ext ?_)
  match b with
  | ⟨0, _⟩ => rfl
  | ⟨1, _⟩ => rfl
  | ⟨2, _⟩ => rfl
  | ⟨3, _⟩ => rfl
  | ⟨4, _⟩ => rfl

/-- Dropping the unit axis: (w, h, s, e) of the four-axis array is (0, w, h, s, e) of the five-axis one. -/
theorem idx8_at (w : Fin 1024) (h : Fin 12) (s : Fin 49) (e : Fin 32) :
    idx_main_v8 (ix4 w h s e) = ix5 (0 : Fin 1) w h s e := by
  refine funext fun b => Fin.ext ?_
  have hw := w.isLt; have hs := s.isLt; have hh := h.isLt; have he := e.isLt
  match b with
  | ⟨0, _⟩ => rfl
  | ⟨1, _⟩ =>
    show (((w.val * 12 + h.val) * 49 + s.val) * 32 + e.val) / 18816 % 1024 = w.val
    omega
  | ⟨2, _⟩ =>
    show (((w.val * 12 + h.val) * 49 + s.val) * 32 + e.val) / 1568 % 12 = h.val
    omega
  | ⟨3, _⟩ =>
    show (((w.val * 12 + h.val) * 49 + s.val) * 32 + e.val) / 32 % 49 = s.val
    omega
  | ⟨4, _⟩ =>
    show (((w.val * 12 + h.val) * 49 + s.val) * 32 + e.val) % 32 = e.val
    omega

/-- The query of head `h`: entry `e` at token `s` is column `col 0 h e` of the projection. -/
theorem v8_at (w : Fin 1024) (h : Fin 12) (s : Fin 49) (e : Fin 32) :
    val_main_v8 (F := Ideal) x0 x1 (ix4 w h s e) = WinAttn.qkv (xw x0 w) (w1 x1) s (WinAttn.col 0 h e) := by
  rw [val_main_v8_apply, idx8_at, val_main_v7_apply]
  have e7 : idx_main_v7 (ix5 (0 : Fin 1) w h s e) = ix5 (0 : Fin 3) w h s e := funext fun b => Fin.ext (by
    match b with
    | ⟨0, _⟩ => rfl
    | ⟨1, _⟩ => rfl
    | ⟨2, _⟩ => rfl
    | ⟨3, _⟩ => rfl
    | ⟨4, _⟩ => rfl)
  rw [e7, v6_at, v5_at, v4_at]

/-- The key of head `h`. -/
theorem v10_at (w : Fin 1024) (h : Fin 12) (s : Fin 49) (e : Fin 32) :
    val_main_v10 (F := Ideal) x0 x1 (ix4 w h s e) = WinAttn.qkv (xw x0 w) (w1 x1) s (WinAttn.col 1 h e) := by
  rw [val_main_v10_apply]
  have e8 : idx_main_v10 (ix4 w h s e) = ix5 (0 : Fin 1) w h s e := idx8_at w h s e
  rw [e8, val_main_v9_apply]
  have e9 : idx_main_v9 (ix5 (0 : Fin 1) w h s e) = ix5 (1 : Fin 3) w h s e := funext fun b => Fin.ext (by
    match b with
    | ⟨0, _⟩ => rfl
    | ⟨1, _⟩ => rfl
    | ⟨2, _⟩ => rfl
    | ⟨3, _⟩ => rfl
    | ⟨4, _⟩ => rfl)
  rw [e9, v6_at, v5_at, v4_at]

/-- The value of head `h`. -/
theorem v12_at (w : Fin 1024) (h : Fin 12) (s : Fin 49) (e : Fin 32) :
    val_main_v12 (F := Ideal) x0 x1 (ix4 w h s e) = WinAttn.qkv (xw x0 w) (w1 x1) s (WinAttn.col 2 h e) := by
  rw [val_main_v12_apply]
  have e8 : idx_main_v12 (ix4 w h s e) = ix5 (0 : Fin 1) w h s e := idx8_at w h s e
  rw [e8, val_main_v11_apply]
  have e11 : idx_main_v11 (ix5 (0 : Fin 1) w h s e) = ix5 (2 : Fin 3) w h s e := funext fun b => Fin.ext (by
    match b with
    | ⟨0, _⟩ => rfl
    | ⟨1, _⟩ => rfl
    | ⟨2, _⟩ => rfl
    | ⟨3, _⟩ => rfl
    | ⟨4, _⟩ => rfl)
  rw [e11, v6_at, v5_at, v4_at]

/-- Query, key and value rows of head `h` of window `w`, as the specification writes them. -/
abbrev qh (x0 : (⟨S16x3136x384, .f32⟩ : BufTy).Contents (Elt Ideal)) (x1 : (⟨S1152x384, .f32⟩ : BufTy).Contents (Elt Ideal))
    (w : Fin 1024) (h : Fin 12) : Fin 49 → Fin 32 → EReal :=
  fun s' e' => WinAttn.qkv (xw x0 w) (w1 x1) s' (WinAttn.col 0 h e')
abbrev kh (x0 : (⟨S16x3136x384, .f32⟩ : BufTy).Contents (Elt Ideal)) (x1 : (⟨S1152x384, .f32⟩ : BufTy).Contents (Elt Ideal))
    (w : Fin 1024) (h : Fin 12) : Fin 49 → Fin 32 → EReal :=
  fun s' e' => WinAttn.qkv (xw x0 w) (w1 x1) s' (WinAttn.col 1 h e')
abbrev vh (x0 : (⟨S16x3136x384, .f32⟩ : BufTy).Contents (Elt Ideal)) (x1 : (⟨S1152x384, .f32⟩ : BufTy).Contents (Elt Ideal))
    (w : Fin 1024) (h : Fin 12) : Fin 49 → Fin 32 → EReal :=
  fun s' e' => WinAttn.qkv (xw x0 w) (w1 x1) s' (WinAttn.col 2 h e')

/-- The scaled score of token `s` against token `t` in head `h`. -/
theorem v15_at (w : Fin 1024) (h : Fin 12) (s t : Fin 49) :
    val_main_v15 (F := Ideal) x0 x1 (ix4 w h s t) = WinAttn.score (qh x0 x1 w h) (kh x0 x1 w h) s t := by
  rw [val_main_v15_apply, val_main_v14_apply, val_main_cst_apply, val_main_v13_apply]
  unfold WinAttn.score
  simp only [Ideal.mulf_def, Ideal.ofBits_def]
  refine congrArg (· * _) (Finset.sum_congr rfl fun k _ => ?_)
  have el : lidx_main_v13 (ix4 w h s t) k = ix4 w h s k := funext fun a => Fin.ext (by
    match a with
    | ⟨0, _⟩ => rfl
    | ⟨1, _⟩ => rfl
    | ⟨2, _⟩ => rfl
    | ⟨3, _⟩ => rfl)
  have er : ridx_main_v13 (ix4 w h s t) k = ix4 w h t k := funext fun a => Fin.ext (by
    match a with
    | ⟨0, _⟩ => rfl
    | ⟨1, _⟩ => rfl
    | ⟨2, _⟩ => rfl
    | ⟨3, _⟩ => rfl)
  rw [el, er, v8_at, v10_at]

/-- The row (w, h, s) with the coordinate `k` put back on the last axis is (w, h, s, k). -/
theorem lift_at (hR : S1024x12x49x49.Reduces [3] S1024x12x49) (w : Fin 1024) (h : Fin 12) (s : Fin 49)
    (k : Fin (S1024x12x49x49.size 3)) : hR.lift (ix3 w h s) k = ix4 w h s (⟨k.val, k.isLt⟩ : Fin 49) := by
  funext c; apply Fin.ext
  fin_cases c <;> rfl

/-- The maximum reduce over the last axis, at row (w, h, s): the fold of `max` from the word of -∞ over the row. -/
theorem v16_at (w : Fin 1024) (h : Fin 12) (s : Fin 49) :
    val_main_v16 (F := Ideal) x0 x1 (ix3 w h s)
      = (Finset.univ : Finset (Fin 49)).fold max (Ideal.ofBits .f32 0xFF800000#32)
          (fun t => val_main_v15 (F := Ideal) x0 x1 (ix4 w h s t)) := by
  unfold val_main_v16
  have hR : S1024x12x49x49.Reduces [3] S1024x12x49 := by decide
  rw [Host.reduce_eq_fold_single FloatOps.maximumf _ _ reducesTo_S1024x12x49x49_S1024x12x49_d3 hR h_S_]
  have hf : (val_main_v15 (F := Ideal) x0 x1 ∘ hR.lift (ix3 w h s)) = fun t : Fin 49 => val_main_v15 (F := Ideal) x0 x1 (ix4 w h s t) :=
    funext fun k => congrArg (val_main_v15 (F := Ideal) x0 x1) (lift_at hR w h s k)
  exact congrArg (fun f => Finset.fold max (Ideal.ofBits .f32 0xFF800000#32) f (Finset.univ : Finset (Fin 49))) hf

/-- The row's maximum as the program takes it. -/
theorem v18_at (w : Fin 1024) (h : Fin 12) (s : Fin 49) :
    val_main_v18 (F := Ideal) x0 x1 (ix3 w h s) = WinAttn.rowMax (WinAttn.score (qh x0 x1 w h) (kh x0 x1 w h) s) := by
  rw [val_main_v18_apply, val_main_v17_apply, val_main_cst_1_apply, v16_at]
  unfold WinAttn.rowMax
  simp only [Ideal.maximumf_def, Ideal.ofBits_def]
  refine congrArg (max _) ?_
  exact congrArg (fun f => Finset.fold max (Ideal.ofBits .f32 0xFF800000#32) f (Finset.univ : Finset (Fin 49)))
    (funext fun t => v15_at x0 x1 w h s t)

/-- The row of scaled scores of token `s` in head `h` of window `w`. -/
abbrev sc (x0 : (⟨S16x3136x384, .f32⟩ : BufTy).Contents (Elt Ideal)) (x1 : (⟨S1152x384, .f32⟩ : BufTy).Contents (Elt Ideal))
    (w : Fin 1024) (h : Fin 12) (s : Fin 49) : Fin 49 → EReal :=
  WinAttn.score (qh x0 x1 w h) (kh x0 x1 w h) s

/-- The row's maximum broadcast back along the row. -/
theorem v20_at (w : Fin 1024) (h : Fin 12) (s t : Fin 49) :
    val_main_v20 (F := Ideal) x0 x1 (ix4 w h s t) = WinAttn.rowMax (sc x0 x1 w h s) := by
  rw [val_main_v20_apply, val_main_v19_apply]
  have e : idx_main_v19 (idx_main_v20 (ix4 w h s t)) = ix3 w h s := funext fun a => Fin.ext (by
    match a with
    | ⟨0, _⟩ => rfl
    | ⟨1, _⟩ => rfl
    | ⟨2, _⟩ => rfl)
  rw [e, v18_at]

/-- The exponential of a score less its row's maximum. -/
theorem v22_at (w : Fin 1024) (h : Fin 12) (s t : Fin 49) :
    val_main_v22 (F := Ideal) x0 x1 (ix4 w h s t) = WinAttn.expo (sc x0 x1 w h s) t := by
  rw [val_main_v22_apply, val_main_v21_apply, v15_at, v20_at]
  unfold WinAttn.expo
  simp only [Ideal.hostUnary_exp_def, Ideal.subf_def]

/-- The row's sum of exponentials: the add reduce starts from the zero word, which is 0. -/
theorem v23_at (w : Fin 1024) (h : Fin 12) (s : Fin 49) :
    val_main_v23 (F := Ideal) x0 x1 (ix3 w h s) = ∑ u : Fin 49, WinAttn.expo (sc x0 x1 w h s) u := by
  rw [val_main_v23_apply, val_main_cst_2_apply]
  simp only [Ideal.ofBits_def]
  rw [Ideal.ofBits_zero_f32, zero_add]
  refine Finset.sum_congr rfl fun k _ => ?_
  have e : idx_main_v23 (ix3 w h s) k = ix4 w h s k := funext fun a => Fin.ext (by
    match a with
    | ⟨0, _⟩ => rfl
    | ⟨1, _⟩ => rfl
    | ⟨2, _⟩ => rfl
    | ⟨3, _⟩ => rfl)
  rw [e, v22_at]

/-- The softmax weight of token `t` for token `s`. -/
theorem v26_at (w : Fin 1024) (h : Fin 12) (s t : Fin 49) :
    val_main_v26 (F := Ideal) x0 x1 (ix4 w h s t) = WinAttn.soft (sc x0 x1 w h s) t := by
  rw [val_main_v26_apply, val_main_v25_apply, val_main_v24_apply]
  have e : idx_main_v24 (idx_main_v25 (ix4 w h s t)) = ix3 w h s := funext fun a => Fin.ext (by
    match a with
    | ⟨0, _⟩ => rfl
    | ⟨1, _⟩ => rfl
    | ⟨2, _⟩ => rfl)
  rw [e, v23_at, v22_at]
  unfold WinAttn.soft
  simp only [Ideal.hostDivf_def]

/-- One head's output at token `s`, entry `e`: the weighted sum of the value rows. -/
theorem v27_at (w : Fin 1024) (h : Fin 12) (s : Fin 49) (e : Fin 32) :
    val_main_v27 (F := Ideal) x0 x1 (ix4 w h s e) = WinAttn.head (xw x0 w) (w1 x1) h s e := by
  rw [val_main_v27_apply]
  unfold WinAttn.head WinAttn.attnHead
  refine Finset.sum_congr rfl fun k _ => ?_
  have el : lidx_main_v27 (ix4 w h s e) k = ix4 w h s k := funext fun a => Fin.ext (by
    match a with
    | ⟨0, _⟩ => rfl
    | ⟨1, _⟩ => rfl
    | ⟨2, _⟩ => rfl
    | ⟨3, _⟩ => rfl)
  have er : ridx_main_v27 (ix4 w h s e) k = ix4 w h k e := funext fun a => Fin.ext (by
    match a with
    | ⟨0, _⟩ => rfl
    | ⟨1, _⟩ => rfl
    | ⟨2, _⟩ => rfl
    | ⟨3, _⟩ => rfl)
  rw [el, er, v26_at, v12_at]

/-- The heads side by side: column `c` of token `s` is entry `c % 32` of head `c / 32`. -/
theorem v29_at (w : Fin 1024) (s : Fin 49) (c : Fin 384) :
    val_main_v29 (F := Ideal) x0 x1 (ix3 w s c) = WinAttn.heads (xw x0 w) (w1 x1) s c := by
  rw [val_main_v29_apply, val_main_v28_apply]
  have e : idx_main_v28 (idx_main_v29 (ix3 w s c))
      = ix4 w (⟨c.val / 32, by have := c.isLt; omega⟩ : Fin 12) s (⟨c.val % 32, Nat.mod_lt _ (by decide)⟩ : Fin 32) :=
    funext fun a => Fin.ext (by
      have hw := w.isLt; have hs := s.isLt; have hc := c.isLt
      match a with
      | ⟨0, _⟩ =>
        show ((w.val * 49 + s.val) * 384 + c.val) / 18816 = w.val
        omega
      | ⟨1, _⟩ =>
        show ((w.val * 49 + s.val) * 384 + c.val) / 32 % 12 = c.val / 32
        omega
      | ⟨2, _⟩ =>
        show ((w.val * 49 + s.val) * 384 + c.val) / 384 % 49 = s.val
        omega
      | ⟨3, _⟩ =>
        show ((w.val * 49 + s.val) * 384 + c.val) % 32 = c.val % 32
        omega)
  rw [e, v27_at]
  rfl

theorem core_apply (x0 : (⟨S16x3136x384, .f32⟩ : BufTy).Contents (Elt Ideal)) (x1 : (⟨S1152x384, .f32⟩ : BufTy).Contents (Elt Ideal))
    (x2 : (⟨S384x384, .f32⟩ : BufTy).Contents (Elt Ideal)) (x3 : (⟨S384, .f32⟩ : BufTy).Contents (Elt Ideal))
    (w : Fin 1024) (s : Fin 49) (d : Fin 384) :
    val_main_v33 (F := Ideal) x0 x1 x2 x3 (ix3 w s d)
      = WinAttn.winAttn (fun s' c => val_main_v3 (F := Ideal) x0 (ix3 w s' c)) (fun j c => x1 (ix2 j c)) (fun d' c => x2 (ix2 d' c))
          (fun d' => x3 (ix1 d')) s d := by
  rw [val_main_v33_apply, val_main_v30_apply, val_main_v32_apply, val_main_v31_apply]
  unfold WinAttn.winAttn
  simp only [Ideal.addf_def]
  have eb : idx_main_v31 (idx_main_v32 (ix3 w s d)) = ix1 d := funext fun a => Fin.ext (by
    match a with
    | ⟨0, _⟩ => rfl)
  rw [eb]
  refine congrArg (· + _) (Finset.sum_congr rfl fun k _ => ?_)
  have el : lidx_main_v30 (ix3 w s d) k = ix3 w s k := funext fun a => Fin.ext (by
    match a with
    | ⟨0, _⟩ => rfl
    | ⟨1, _⟩ => rfl
    | ⟨2, _⟩ => rfl)
  have er : ridx_main_v30 (ix3 w s d) k = ix2 d k := funext fun a => Fin.ext (by
    match a with
    | ⟨0, _⟩ => rfl
    | ⟨1, _⟩ => rfl)
  rw [el, er, v29_at]

end Cert.ReferenceIdeal.RefValue

end
-- ==== Proof.RefWhole.lean ====
/-
  The reference's result is the whole computation: its first four operations are the window partition, its last four
  the window reverse, and between them every window goes through the windowed attention (`core_apply`).
-/
import proofs.«164484_j4793183502520_1_alg».proof.Proof.RefValue
import proofs.«164484_j4793183502520_1_alg».proof.Proof.Whole

noncomputable section

namespace Cert.ReferenceIdeal.RefValue

open Idealize.ShloMosaic Idealize.ShloMosaic.ValueIdx Idealize.SL.Sem Cert.ReferenceIdeal Cert.ReferenceIdeal.Gen Cert.ReferenceIdeal.Read

/-- The reference's first four operations are the window partition. -/
theorem partition_eq (x0 : (⟨S16x3136x384, .f32⟩ : BufTy).Contents (Elt Ideal)) :
    val_main_v3 (F := Ideal) x0 = WinAttn.partition x0 := rfl

/-- The array before the window reverse: every window through the windowed attention. -/
theorem core_eq (x0 : (⟨S16x3136x384, .f32⟩ : BufTy).Contents (Elt Ideal)) (x1 : (⟨S1152x384, .f32⟩ : BufTy).Contents (Elt Ideal))
    (x2 : (⟨S384x384, .f32⟩ : BufTy).Contents (Elt Ideal)) (x3 : (⟨S384, .f32⟩ : BufTy).Contents (Elt Ideal)) :
    val_main_v33 (F := Ideal) x0 x1 x2 x3 = WinAttn.attnAll (WinAttn.partition x0) x1 x2 x3 := by
  funext i
  obtain ⟨w, s, d, rfl⟩ : ∃ (w : Fin 1024) (s : Fin 49) (d : Fin 384), i = ix3 w s d := ⟨i 0, i 1, i 2, eq_ix3 i⟩
  rw [core_apply, WinAttn.attnAll_ix3, partition_eq]

/-- The reference's result. -/
theorem result_eq (x0 : (⟨S16x3136x384, .f32⟩ : BufTy).Contents (Elt Ideal)) (x1 : (⟨S1152x384, .f32⟩ : BufTy).Contents (Elt Ideal))
    (x2 : (⟨S384x384, .f32⟩ : BufTy).Contents (Elt Ideal)) (x3 : (⟨S384, .f32⟩ : BufTy).Contents (Elt Ideal)) :
    val_main_v37 (F := Ideal) x0 x1 x2 x3 = WinAttn.whole x0 x1 x2 x3 := by
  unfold val_main_v37 val_main_v36 val_main_v35 val_main_v34
  rw [core_eq]
  rfl

end Cert.ReferenceIdeal.RefValue

end
-- ==== Proof.lean ====
/-
  The certificate's claims, assembled.

  Kernel and reference compute one function of the four arguments (`Cert.WinAttn.whole`): the window partition, the
  windowed multi-head attention of every 7×7 window, the window reverse. The kernel's run ends with its result at that
  function of its arguments (`KernelValue.run`: the 64 grid points each write the attention of their 16 windows, and
  the blocks tile the output array); the reference's run ends with its result at the same function of its arguments
  (`RefValue.result_eq`, over the run's composed term); the arguments agree. Both sides take every sum and every
  maximum over the same index sets, so the equality needs no finiteness and the precondition is never opened. The
  three frames are the runs with the result dropped; the idealization rewrote nothing, so `preserves` is `True`.
-/
import proofs.«164484_j4793183502520_1_alg».proof.Defs
import proofs.«164484_j4793183502520_1_alg».proof.Proof.Gen.Kernel
import proofs.«164484_j4793183502520_1_alg».proof.Proof.Gen.Kernel.Skeleton
import proofs.«164484_j4793183502520_1_alg».proof.Proof.Gen.Kernel.Launch
import proofs.«164484_j4793183502520_1_alg».proof.Proof.Gen.Kernel.Points
import proofs.«164484_j4793183502520_1_alg».proof.Proof.Gen.Kernel.Frame
import proofs.«164484_j4793183502520_1_alg».proof.Proof.Gen.KernelIdeal
import proofs.«164484_j4793183502520_1_alg».proof.Proof.Gen.KernelIdeal.Skeleton
import proofs.«164484_j4793183502520_1_alg».proof.Proof.Gen.KernelIdeal.Launch
import proofs.«164484_j4793183502520_1_alg».proof.Proof.Gen.KernelIdeal.Points
import proofs.«164484_j4793183502520_1_alg».proof.Proof.Gen.KernelIdeal.Frame
import proofs.«164484_j4793183502520_1_alg».proof.Proof.Gen.ReferenceIdeal
import proofs.«164484_j4793183502520_1_alg».proof.Proof.Gen.Pre_finite_inputs
import proofs.«164484_j4793183502520_1_alg».proof.Proof.Gen.ReferenceIdeal.Run
import proofs.«164484_j4793183502520_1_alg».proof.Proof.Gen.ReferenceIdeal.Read
import proofs.«164484_j4793183502520_1_alg».proof.Proof.KernelValue
import proofs.«164484_j4793183502520_1_alg».proof.Proof.RefWhole
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the whole computation of the (agreeing) arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
